-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x3 .f32) (main_arg1 : FVec F S8x8192x3 .f32) (main_arg2 : FVec F S8x2048x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x8192x3 .f32 := Host.absf main_arg1
  let main_cst_0 : FVec F S_ .f32 := constant S_ .f32 0x7F800000#32
  let main_v5 : FVec F S8x8192x3 .f32 := broadcastInDim S8x8192x3 ![] bcast_S_S8x8192x3 main_cst_0
  let main_v6 : IVec S8x8192x3 1 := cmpf .olt main_v4 main_v5
  let main_c_1 : IVec S_ 1 := constantI S_ 1 1#1
  let main_v7 : IVec S_ 1 := (fun x v => Host.reduce IntOp.andi x v reducesTo_S8x8192x3_S_d0_1_2 h_S_) main_v6 main_c_1
  let main_v8 : IVec S_ 1 := andi main_v3 main_v7
  let main_v9 : FVec F S8x2048x3 .f32 := Host.absf main_arg2
  let main_cst_2 : FVec F S_ .f32 := constant S_ .f32 0x7F800000#32
  let main_v10 : FVec F S8x2048x3 .f32 := broadcastInDim S8x2048x3 ![] bcast_S_S8x2048x3 main_cst_2
  let main_v11 : IVec S8x2048x3 1 := cmpf .olt main_v9 main_v10
  let main_c_3 : IVec S_ 1 := constantI S_ 1 1#1
  let main_v12 : IVec S_ 1 := (fun x v => Host.reduce IntOp.andi x v reducesTo_S8x2048x3_S_d0_1_2 h_S_) main_v11 main_c_3
  let main_v13 : IVec S_ 1 := andi main_v8 main_v12
  main_v13
-- ==== Kernel.lean ====
abbrev S8x8192x3 : Shape := ⟨3, ![8, 8192, 3]⟩
abbrev S8x2048x3 : Shape := ⟨3, ![8, 2048, 3]⟩
abbrev S8x3x8192 : Shape := ⟨3, ![8, 3, 8192]⟩
abbrev S8x1x1 : Shape := ⟨3, ![8, 1, 1]⟩
abbrev S1x2048x3 : Shape := ⟨3, ![1, 2048, 3]⟩
abbrev S1x3x512 : Shape := ⟨3, ![1, 3, 512]⟩
abbrev S1x1x1 : Shape := ⟨3, ![1, 1, 1]⟩
abbrev S2048x1 : Shape := ⟨2, ![2048, 1]⟩
abbrev S2048x3 : Shape := ⟨2, ![2048, 3]⟩
abbrev S3x512 : Shape := ⟨2, ![3, 512]⟩
abbrev S1x512 : Shape := ⟨2, ![1, 512]⟩
abbrev S2048x512 : Shape := ⟨2, ![2048, 512]⟩
abbrev S2048 : Shape := ⟨1, ![2048]⟩
abbrev S1 : Shape := ⟨1, ![1]⟩
abbrev S1x1 : Shape := ⟨2, ![1, 1]⟩
abbrev S8 : Shape := ⟨1, ![8]⟩

abbrev nBuf : Space → Nat
  | .hbm => 7
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x2048x3, .f32⟩
  | .hbm, ⟨3, _⟩ => ⟨S8x3x8192, .f32⟩
  | .hbm, ⟨4, _⟩ => ⟨S8x3x8192, .f32⟩
  | .hbm, ⟨5, _⟩ => ⟨S8x1x1, .f32⟩
  | .hbm, ⟨6, _⟩ => ⟨S8, .f32⟩
  | .local _ .vmem, ⟨0, _⟩ => ⟨S1x2048x3, .f32⟩
  | .local _ .vmem, ⟨1, _⟩ => ⟨S1x2048x3, .f32⟩
  | .local _ .vmem, ⟨2, _⟩ => ⟨S1x3x512, .f32⟩
  | .local _ .vmem, ⟨3, _⟩ => ⟨S1x3x512, .f32⟩
  | .local _ .vmem, ⟨4, _⟩ => ⟨S1x3x512, .f32⟩
  | .local _ .vmem, ⟨5, _⟩ => ⟨S1x3x512, .f32⟩
  | .local _ .vmem, ⟨6, _⟩ => ⟨S1x1x1, .f32⟩
  | .local _ .vmem, ⟨7, _⟩ => ⟨S1x1x1, .f32⟩
  | .local _ .vmem, ⟨8, _⟩ => ⟨S2048x1, .f32⟩
  | .local _ .vmem, ⟨9, _⟩ => ⟨S2048x1, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v80 : BitVec 1 := Scalar.cmpi .eq arg1 c15_i32
  let v81 : BitVec 32 := Scalar.extui v80
  let c0_i32_16 : BitVec 32 := 0#32
  let v82 : BitVec 1 := Scalar.cmpi .ne v81 c0_i32_16
  v82

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x8192x3_S8x3x8192_0_2_1 : S8x8192x3.Transposes [0, 2, 1] S8x3x8192
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1_S1 : S2048x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S8x1x1_S8 : S8x1x1.ShapeCasts S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x2048x3.size a
  hwx0_0 : ∀ i : grid0.Coords, EltTy.bits .f32 = 32 ∨ (Rect.block (s := S8x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S8x3x8192.size a
  hwx0_1 : ∀ i : grid0.Coords, EltTy.bits .f32 = 32 ∨ (Rect.block (s := S8x3x8192) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512.size a ≤ S8x3x8192.size a
  hwx0_2 : ∀ i : grid0.Coords, EltTy.bits .f32 = 32 ∨ (Rect.block (s := S8x3x8192) S1x3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_arg2) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x8192 : Shape := ⟨2, ![8, 8192]⟩
abbrev S8x1x8192 : Shape := ⟨3, ![8, 1, 8192]⟩
abbrev S8x2048x8192 : Shape := ⟨3, ![8, 2048, 8192]⟩
abbrev S8 : Shape := ⟨1, ![8]⟩

abbrev nBuf : Space → Nat
  | .hbm => 54
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x2048x3, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x8192x3, .f32⟩
  | .hbm, ⟨8, _⟩ => ⟨S_, .f32⟩
  | .hbm, ⟨9, _⟩ => ⟨S8x8192, .f32⟩
  | .hbm, ⟨10, _⟩ => ⟨S8x1x8192, .f32⟩
  | .hbm, ⟨11, _⟩ => ⟨S8x2048x8192, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S_, .f32⟩
  | .hbm, ⟨16, _⟩ => ⟨S8x2048x8192, .f32⟩
  | .hbm, ⟨17, _⟩ => ⟨S8x2048x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .f32⟩
  | .hbm, ⟨22, _⟩ => ⟨S8x2048x8192, .f32⟩
  | .hbm, ⟨23, _⟩ => ⟨S_, .f32⟩
  | .hbm, ⟨24, _⟩ => ⟨S8x2048, .f32⟩
  | .hbm, ⟨25, _⟩ => ⟨S8x2048x3, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x8192x3, .f32⟩
  | .hbm, ⟨30, _⟩ => ⟨S_, .f32⟩
  | .hbm, ⟨31, _⟩ => ⟨S8x8192, .f32⟩
  | .hbm, ⟨32, _⟩ => ⟨S8x1x8192, .f32⟩
  | .hbm, ⟨33, _⟩ => ⟨S8x2048x8192, .f32⟩
  | .hbm, ⟨34, _⟩ => ⟨S8x2048x8192, .f32⟩
  | .hbm, ⟨35, _⟩ => ⟨S8x2048x8192, .f32⟩
  | .hbm, ⟨36, _⟩ => ⟨S8x2048x8192, .f32⟩
  | .hbm, ⟨37, _⟩ => ⟨S_, .f32⟩
  | .hbm, ⟨38, _⟩ => ⟨S8x2048x8192, .f32⟩
  | .hbm, ⟨39, _⟩ => ⟨S8x2048x8192, .f32⟩
  | .hbm, ⟨40, _⟩ => ⟨S8x2048x8192, .f32⟩
  | .hbm, ⟨41, _⟩ => ⟨S_, .f32⟩
  | .hbm, ⟨42, _⟩ => ⟨S8x2048x8192, .f32⟩
  | .hbm, ⟨43, _⟩ => ⟨S8x2048x8192, .f32⟩
  | .hbm, ⟨44, _⟩ => ⟨S8x2048x8192, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  reducesTo_S8x8192x3_S8x8192_d2 : S8x8192x3.ReducesTo [2] S8x8192
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  reducesTo_S8x2048x8192_S8x2048_d2 : S8x2048x8192.ReducesTo [2] S8x2048
  reducesTo_S8x2048_S8_d1 : S8x2048.ReducesTo [1] S8
  bcast_S_S8 : S_.BroadcastsInDim S8 (![] : Fin 0 → Fin S8.rank)
  dot_S8x2048x3_S8x8192x3_S8x2048x8192_2_2_1_1_0_0_wf : DotDims.WF S8x2048x3 S8x8192x3 S8x2048x8192 [2] [2] [1] [1] [0] [0]

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf

class Facts : Prop extends Facts₀ where

variable [Facts]
-- ==== Proof.BitsBodyConds.lean ====
/-
  The kernel body's three branches over the grid, and where its result window is idle.

  The grid is 8 batches by 16 chunks, run in row-major order, so a point's chunk number is its position
  modulo 16. The first branch (the chunk is the batch's first) resets the two running minima, the second
  (it is not the first) folds the chunk's minima into them, the third (it is the last) writes the result.
-/
import proofs.«128429_j16346645528639_1_alg».proof.Proof.Gen.Kernel.Launch
import proofs.«128429_j16346645528639_1_alg».proof.Proof.Gen.Kernel.Skeleton
import proofs.«128429_j16346645528639_1_alg».proof.Proof.Gen.Kernel.Points
import proofs.«128429_j16346645528639_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- The chunk is the batch's first. -/
abbrev isFirst (i : grid0.Coords) : Prop := (Scalar.cmpi .ne (Scalar.extui (Scalar.cmpi .eq (BitVec.ofNat 32 (i 1).val) 0#32)) 0#32) = 1#1
/-- It is so at the positions ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- The chunk is not the batch's first. -/
abbrev isLater (i : grid0.Coords) : Prop := (Scalar.cmpi .ne (Scalar.extui (Scalar.cmpi .ne (BitVec.ofNat 32 (i 1).val) 0#32)) 0#32) = 1#1
/-- It is so at the other positions. -/
theorem isLater_iff : ∀ t : Fin cfg0.N, isLater (grid0.coords t) ↔ ¬ t.val % 16 = 0 :=
  (by decide +kernel : ∀ t : Fin grid0.N, isLater (grid0.coords t) ↔ ¬ t.val % 16 = 0)

/-- The chunk is the batch's last. -/
abbrev isLast (i : grid0.Coords) : Prop := k0_cond3 i = 1#1
/-- It is so at the positions ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from a batch's last chunk the body stores nothing into the result window, -/
theorem idle3 : ∀ t : Fin cfg0.N, ¬isLast (grid0.coords t) → cfg0.idle 3 (grid0.coords t) = true := by decide +kernel
/-- and the pipeline does not write it back there; -/
theorem noFlush3 : ∀ t : Fin cfg0.N, ¬isLast (grid0.coords t) → (cfg0.win 3).flush t = false := by decide +kernel
/-- at the last chunk it does store. -/
theorem live3 : ∀ t : Fin cfg0.N, isLast (grid0.coords t) → cfg0.idle 3 (grid0.coords t) = false := by decide +kernel

/-! ## The memrefs the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The two scratch buffers that carry the running minima. -/
abbrev scP : Memref sig .tc .vmem S2048x1 .f32 := Memref.whole cc0_scratch0
abbrev scG : Memref sig .tc .vmem S2048x1 .f32 := Memref.whole cc0_scratch1

/-- What the region may use besides its windows: the two scratch buffers at some contents, and the generator register. -/
theorem PhiA_eq (c : Dev nD) :
    (Pipeline.ΦA spec0 c : sProp 𝕄)
      = iprop(iprop((∃ d, owns (c : Thread nD τ) scP fullShare d) ∗ (∃ d, owns (c : Thread nD τ) scG fullShare d)) ∗ (∃ r, prngReg c r)) := by
  unfold Pipeline.ΦA; rw [scopedRest0_eq]; simp only [scP, scG, owns_whole]; try rfl

end Cert.Kernel.Body

end
-- ==== Proof.BitsBodyData.lean ====
/-
  What the two scratch buffers and the result window hold after each grid point, and the pipeline's proof
  data over it.

  After a batch's first chunk a scratch holds that chunk's row minima; after a later chunk, the elementwise
  minimum of what it held and the chunk's row minima. At a batch's last chunk the result window receives
  the mean absolute gap of the two scratches.
-/
import proofs.«128429_j16346645528639_1_alg».proof.Proof.BitsBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

/-- The grid block (window 0), the first cloud's chunk (window 1), the second cloud's chunk (window 2). -/
abbrev gblk (c : Dev nD) (t : Fin cfg0.N) : Vec F S1x2048x3 .f32 := iblk m c 0 t
abbrev pblk (c : Dev nD) (t : Fin cfg0.N) : Vec F S1x3x512 .f32 := iblk m c 1 t
abbrev qblk (c : Dev nD) (t : Fin cfg0.N) : Vec F S1x3x512 .f32 := iblk m c 2 t

/-- The row minima of the point's chunk against the first cloud, and against the second. -/
def curP (c : Dev nD) (t : Fin cfg0.N) : FVec F S2048x1 .f32 := k0_pay12 (gblk m c t) (pblk m c t)
def curG (c : Dev nD) (t : Fin cfg0.N) : FVec F S2048x1 .f32 :=
  k0_pay1 (k0_pay8 (gblk m c t)) (k0_pay9 (gblk m c t)) (k0_pay10 (gblk m c t)) (k0_pay11 (gblk m c t)) (k0_pay13 (qblk m c t)) (k0_pay14 (qblk m c t)) (k0_pay15 (qblk m c t))

/-- What a reset stores into the two scratches at point `t`. -/
def resetAt (c : Dev nD) (t : Fin cfg0.N) : Vec F S2048x1 .f32 × Vec F S2048x1 .f32 :=
  (k0_pay2 (curP m c t), k0_pay3 (k0_pay8 (gblk m c t)) (k0_pay9 (gblk m c t)) (k0_pay10 (gblk m c t)) (k0_pay11 (gblk m c t)) (k0_pay13 (qblk m c t)) (k0_pay14 (qblk m c t)) (k0_pay15 (qblk m c t)))
/-- What a fold stores into them at point `t`, over what they held. -/
def foldAt (c : Dev nD) (t : Fin cfg0.N) (prev : Vec F S2048x1 .f32 × Vec F S2048x1 .f32) : Vec F S2048x1 .f32 × Vec F S2048x1 .f32 :=
  (k0_pay4 (curP m c t) prev.1, k0_pay5 (k0_pay8 (gblk m c t)) (k0_pay9 (gblk m c t)) (k0_pay10 (gblk m c t)) (k0_pay11 (gblk m c t)) (k0_pay13 (qblk m c t)) (k0_pay14 (qblk m c t)) (k0_pay15 (qblk m c t)) prev.2)

/-- The two scratches after the point at position `n`. -/
def scAt (c : Dev nD) : (n : ℕ) → n < cfg0.N → Vec F S2048x1 .f32 × Vec F S2048x1 .f32
  | 0, hn => resetAt m c ⟨0, hn⟩
  | n + 1, hn => if (n + 1) % 16 = 0 then resetAt m c ⟨n + 1, hn⟩ else foldAt m c ⟨n + 1, hn⟩ (scAt c n (Nat.lt_of_succ_lt hn))

/-- At a batch's first chunk: the reset. -/
theorem scAt_first (c : Dev nD) (t : Fin cfg0.N) (h : t.val % 16 = 0) : scAt m c t.val t.isLt = resetAt m c t := by
  obtain ⟨n, hn⟩ := t
  cases n with
  | zero => rfl
  | succ n => exact if_pos h

/-- At a later chunk: the fold over the point before. -/
theorem scAt_later (c : Dev nD) (t : Fin cfg0.N) (h : ¬t.val % 16 = 0) :
    scAt m c t.val t.isLt = foldAt m c t (scAt m c (t.val - 1) (Nat.lt_of_le_of_lt (Nat.sub_le _ _) t.isLt)) := by
  obtain ⟨n, hn⟩ := t
  cases n with
  | zero => exact absurd (Nat.zero_mod _) h
  | succ n => exact if_neg h

/-- What the result window's staging buffer holds after point `t` (consulted only at a batch's last chunk). -/
def outAt (c : Dev nD) (t : Fin cfg0.N) : Vec F S1x1x1 .f32 :=
  k0_pay6 (scAt m c t.val t.isLt).1 (scAt m c t.val t.isLt).2

/-! ## The region's invariant -/

/-- Before the first point the two scratches hold anything; before a later point, what the point before left. -/
def PhiS (c : Dev nD) : (n : ℕ) → n ≤ cfg0.N → sProp 𝕄
  | 0, _ => Pipeline.ΦA spec0 c
  | n + 1, hn => iprop(iprop(owns (c : Thread nD τ) scP fullShare (scAt m c n hn).1 ∗ owns (c : Thread nD τ) scG fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (scAt m c n hn).1 ∗ owns (c : Thread nD τ) scG fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scP fullShare (scAt m c (n - 1) (by omega)).1 ∗ owns (c : Thread nD τ) scG fullShare (scAt m c (n - 1) (by omega)).2) ∗ (∃ r, prngReg c r)) := by
  cases n with
  | zero => exact absurd rfl hz
  | succ n => rfl

/-! ## The pipeline's proof data -/

/-- The arrays as the region finds them; after the body each input's buffer at its block and the result's at
    `outAt`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.Kernel.Body

end
-- ==== Proof.BitsBodyRunFirst.lean ====
/-
  The body at a batch's first chunk: both running minima are reset to the chunk's minima.

  On whole memrefs, the three input blocks at their contents, the result window at contents it hands back
  untouched and the two scratch buffers at anything, the body runs to a state holding the inputs as they
  were and each scratch with its stores written; the stores are found by running the body.
-/
import proofs.«128429_j16346645528639_1_alg».proof.Proof.BitsBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runFirst (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    Σ' (LP : List (View.Piece (Elt F) S2048x1 .f32)), { LG : List (View.Piece (Elt F) S2048x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.Kernel.Body

end
-- ==== Proof.BitsBodyRunMid.lean ====
/-
  The body at a chunk that is neither a batch's first nor its last: the chunk's minima are folded into
  the two running minima, which the scratch buffers hold from the chunk before.
-/
import proofs.«128429_j16346645528639_1_alg».proof.Proof.BitsBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runMid (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32)
    (xs0 : Vec F S2048x1 .f32) (xs1 : Vec F S2048x1 .f32) :
    Σ' (LP : List (View.Piece (Elt F) S2048x1 .f32)), { LG : List (View.Piece (Elt F) S2048x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.Kernel.Body

end
-- ==== Proof.BitsBodyRunLast.lean ====
/-
  The body at a batch's last chunk: the chunk's minima are folded into the two running minima, and the
  mean absolute gap of the two is stored into the result window.
-/
import proofs.«128429_j16346645528639_1_alg».proof.Proof.BitsBodyConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runLast (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32)
    (xs0 : Vec F S2048x1 .f32) (xs1 : Vec F S2048x1 .f32) :
    Σ' (LO : List (View.Piece (Elt F) S1x1x1 .f32)) (LP : List (View.Piece (Elt F) S2048x1 .f32)), { LG : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, Hk⟩
    obtain rfl := harg2.eq_unread hf0; obtain rfl := harg3.eq_unread hf1; obtain rfl := harg4.eq_unread hf2
    obtain rfl := harg6.eq_unread hf6; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    iexists _; iexact H7

end Cert.Kernel.Body

end
-- ==== Proof.BitsBodyPieces.lean ====
/-
  What each case's stores leave, read back: every store is of a whole buffer, so the buffer holds the
  stored value, a pure term of the blocks the body loaded (and, at a later chunk, of what the scratches held).
-/
import proofs.«128429_j16346645528639_1_alg».proof.Proof.BitsBodyRunFirst
import proofs.«128429_j16346645528639_1_alg».proof.Proof.BitsBodyRunMid
import proofs.«128429_j16346645528639_1_alg».proof.Proof.BitsBodyRunLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-! ## A batch's first chunk -/

theorem coverFirstP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) (y : S2048x1.Idx) :
    ∃ pc ∈ (runFirst (F := F) c i arg2 harg2 arg3 harg3 arg4 harg4 arg5 harg5 arg6 harg6 arg7 harg7 h1 h2 h3 x0 x1 x2).1, y ∈ pc.1.set :=
  View.cover_of_tiledL (runFirst (F := F) c i arg2 harg2 arg3 harg3 arg4 harg4 arg5 harg5 arg6 harg6 arg7 harg7 h1 h2 h3 x0 x1 x2).1 S2048x1.size (by sl_kernel_rfl) y
theorem coverFirstG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) (y : S2048x1.Idx) :
    ∃ pc ∈ (runFirst (F := F) c i arg2 harg2 arg3 harg3 arg4 harg4 arg5 harg5 arg6 harg6 arg7 harg7 h1 h2 h3 x0 x1 x2).2.1, y ∈ pc.1.set :=
  View.cover_of_tiledL (runFirst (F := F) c i arg2 harg2 arg3 harg3 arg4 harg4 arg5 harg5 arg6 harg6 arg7 harg7 h1 h2 h3 x0 x1 x2).2.1 S2048x1.size (by sl_kernel_rfl) y

theorem firstP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    View.canon (runFirst (F := F) c i arg2 harg2 arg3 harg3 arg4 harg4 arg5 harg5 arg6 harg6 arg7 harg7 h1 h2 h3 x0 x1 x2).1 = k0_pay2 (k0_pay12 x0 x1) := by
  unfold runFirst; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem firstG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    View.canon (runFirst (F := F) c i arg2 harg2 arg3 harg3 arg4 harg4 arg5 harg5 arg6 harg6 arg7 harg7 h1 h2 h3 x0 x1 x2).2.1 = k0_pay3 (k0_pay8 x0) (k0_pay9 x0) (k0_pay10 x0) (k0_pay11 x0) (k0_pay13 x2) (k0_pay14 x2) (k0_pay15 x2) := by
  unfold runFirst; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]

/-! ## A chunk neither first nor last -/

theorem coverMidP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) (y : S2048x1.Idx) :
    ∃ pc ∈ (runMid (F := F) c i arg2 harg2 arg3 harg3 arg4 harg4 arg5 harg5 arg6 harg6 arg7 harg7 h1 h2 h3 x0 x1 x2 xs0 xs1).1, y ∈ pc.1.set :=
  View.cover_of_tiledL (runMid (F := F) c i arg2 harg2 arg3 harg3 arg4 harg4 arg5 harg5 arg6 harg6 arg7 harg7 h1 h2 h3 x0 x1 x2 xs0 xs1).1 S2048x1.size (by sl_kernel_rfl) y
theorem coverMidG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) (y : S2048x1.Idx) :
    ∃ pc ∈ (runMid (F := F) c i arg2 harg2 arg3 harg3 arg4 harg4 arg5 harg5 arg6 harg6 arg7 harg7 h1 h2 h3 x0 x1 x2 xs0 xs1).2.1, y ∈ pc.1.set :=
  View.cover_of_tiledL (runMid (F := F) c i arg2 harg2 arg3 harg3 arg4 harg4 arg5 harg5 arg6 harg6 arg7 harg7 h1 h2 h3 x0 x1 x2 xs0 xs1).2.1 S2048x1.size (by sl_kernel_rfl) y

theorem midP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) :
    View.canon (runMid (F := F) c i arg2 harg2 arg3 harg3 arg4 harg4 arg5 harg5 arg6 harg6 arg7 harg7 h1 h2 h3 x0 x1 x2 xs0 xs1).1 = k0_pay4 (k0_pay12 x0 x1) xs0 := by
  unfold runMid; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem midG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) :
    View.canon (runMid (F := F) c i arg2 harg2 arg3 harg3 arg4 harg4 arg5 harg5 arg6 harg6 arg7 harg7 h1 h2 h3 x0 x1 x2 xs0 xs1).2.1 = k0_pay5 (k0_pay8 x0) (k0_pay9 x0) (k0_pay10 x0) (k0_pay11 x0) (k0_pay13 x2) (k0_pay14 x2) (k0_pay15 x2) xs1 := by
  unfold runMid; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]

/-! ## A batch's last chunk -/

theorem coverLastO (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S1x1x1.Idx) :
    ∃ pc ∈ (runLast (F := F) c i arg2 harg2 arg3 harg3 arg4 harg4 arg5 harg5 arg6 harg6 arg7 harg7 h1 h2 h3 x0 x1 x2 xs0 xs1).1, y ∈ pc.1.set :=
  View.cover_of_tiledL (runLast (F := F) c i arg2 harg2 arg3 harg3 arg4 harg4 arg5 harg5 arg6 harg6 arg7 harg7 h1 h2 h3 x0 x1 x2 xs0 xs1).1 S1x1x1.size (by sl_kernel_rfl) y
theorem coverLastP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S2048x1.Idx) :
    ∃ pc ∈ (runLast (F := F) c i arg2 harg2 arg3 harg3 arg4 harg4 arg5 harg5 arg6 harg6 arg7 harg7 h1 h2 h3 x0 x1 x2 xs0 xs1).2.1, y ∈ pc.1.set :=
  View.cover_of_tiledL (runLast (F := F) c i arg2 harg2 arg3 harg3 arg4 harg4 arg5 harg5 arg6 harg6 arg7 harg7 h1 h2 h3 x0 x1 x2 xs0 xs1).2.1 S2048x1.size (by sl_kernel_rfl) y
theorem coverLastG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S2048x1.Idx) :
    ∃ pc ∈ (runLast (F := F) c i arg2 harg2 arg3 harg3 arg4 harg4 arg5 harg5 arg6 harg6 arg7 harg7 h1 h2 h3 x0 x1 x2 xs0 xs1).2.2.1, y ∈ pc.1.set :=
  View.cover_of_tiledL (runLast (F := F) c i arg2 harg2 arg3 harg3 arg4 harg4 arg5 harg5 arg6 harg6 arg7 harg7 h1 h2 h3 x0 x1 x2 xs0 xs1).2.2.1 S2048x1.size (by sl_kernel_rfl) y

theorem lastP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).2.1 = k0_pay4 (k0_pay12 x0 x1) xs0 := by
  unfold runLast; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem lastG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).2.2.1 = k0_pay5 (k0_pay8 x0) (k0_pay9 x0) (k0_pay10 x0) (k0_pay11 x0) (k0_pay13 x2) (k0_pay14 x2) (k0_pay15 x2) xs1 := by
  unfold runLast; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
/-- The result window receives the mean absolute gap of the two scratches as the fold just left them. -/
theorem lastO (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).1
      = k0_pay6 (k0_pay4 (k0_pay12 x0 x1) xs0) (k0_pay5 (k0_pay8 x0) (k0_pay9 x0) (k0_pay10 x0) (k0_pay11 x0) (k0_pay13 x2) (k0_pay14 x2) (k0_pay15 x2) xs1) := by
  unfold runLast; dsimp only; sl_unfold_words
  rw [View.canon_unit_zero hz3]
  simp only [View.readCov_unit_zero (S := S2048x1) _ hz2, View.readAt_eq_ld, Memref.IsWhole.read_unread, View.ld_unit_zero (S := S1x2048x3) hz3, View.ld_unit_zero (S := S1x3x512) hz3, View.ld_unit_zero (S := S2048x1) hz2]

end Cert.Kernel.Body

end
-- ==== Proof.BitsBodyObl.lean ====
/-
  The body obligation at every grid point, the region's run, and the frame.

  At each point the inputs' staging buffers hold their blocks; the position modulo 16 says which branches
  the body takes; the invariant hands it the two scratches at what the point before left (at anything before
  the first point) and takes them back at this point's contents.
-/
import proofs.«128429_j16346645528639_1_alg».proof.Proof.BitsBodyData
import proofs.«128429_j16346645528639_1_alg».proof.Proof.BitsBodyPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 128 := lt_of_lt_of_eq t.isLt (show cfg0.N = 128 from N_0)
  by_cases h0 : t.val % 16 = 0
  · have c1 : isFirst (grid0.coords t) := (isFirst_iff t).mpr h0
    have c2 : ¬isLater (grid0.coords t) := fun h => (isLater_iff t).mp h h0
    have c3 : ¬isLast (grid0.coords t) := fun h => by have := (isLast_iff t).mp h; omega
    rw [Dat.leavesExact_idle (dats m 0 c) 3 t (idle3 t c3) (noFlush3 t c3)]
    rw [scAt_first m c t h0]; dsimp only [resetAt]
    by_cases hz : t.val = 0
    · rw [PhiS_castSucc m c t, PhiS_zero m c _ _ hz, PhiA_eq]
      iintro ⟨⟨⟨HP, HG⟩, Hg⟩, Ho, ⟨%d0, H0⟩, ⟨%d1, H1⟩, ⟨%d2, H2⟩, ⟨%d3, H3⟩⟩
      iapply ((runFirst c (grid0.coords t) _ _ _ _ _ _ _ _ _ _ _ _ c1 c2 c3 (gblk m c t) (pblk m c t) (qblk m c t)).2.2 _ Set.univ _)
      isplitl [H0]; · iexact H0
      isplitl [H1]; · iexact H1
      isplitl [H2]; · iexact H2
      isplitl [H3]; · iexact H3
      isplitl [HP]; · iexact HP
      isplitl [HG]; · iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverFirstP _ _ _ _ _ _ _ _ _ _ _ _ _ _ _ _ _ _ _ _ )).trans (firstP _ _ _ _ _ _ _ _ _ _ _ _ _ _ _ _ _ _ _ _ )
          · unfold owns; iexists _; isplitr
            swap; · iexact HG
            ipureintro; exact (View.read_writes_eq_canon _ _ _ (coverFirstG _ _ _ _ _ _ _ _ _ _ _ _ _ _ _ _ _ _ _ _ )).trans (firstG _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runFirst c (grid0.coords t) _ _ _ _ _ _ _ _ _ _ _ _ c1 c2 c3 (gblk m c t) (pblk m c t) (qblk m c t)).2.2 _ Set.univ _)
      isplitl [H0]; · iexact H0
      isplitl [H1]; · iexact H1
      isplitl [H2]; · iexact H2
      isplitl [H3]; · iexact H3
      isplitl [HP]; · iexists _; iexact HP
      isplitl [HG]; · iexists _; iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverFirstP _ _ _ _ _ _ _ _ _ _ _ _ _ _ _ _ _ _ _ _ )).trans (firstP _ _ _ _ _ _ _ _ _ _ _ _ _ _ _ _ _ _ _ _ )
          · unfold owns; iexists _; isplitr
            swap; · iexact HG
            ipureintro; exact (View.read_writes_eq_canon _ _ _ (coverFirstG _ _ _ _ _ _ _ _ _ _ _ _ _ _ _ _ _ _ _ _ )).trans (firstG _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have c1 : ¬isFirst (grid0.coords t) := fun h => h0 ((isFirst_iff t).mp h)
    have c2 : isLater (grid0.coords t) := (isLater_iff t).mpr h0
    have hz : t.val ≠ 0 := fun h => h0 (by rw [h])
    by_cases h15 : t.val % 16 = 15
    · have c3 : isLast (grid0.coords t) := (isLast_iff t).mpr h15
      rw [show (dats m 0 c).leavesExact 3 t = owns (c : Thread nD τ) (ms3 t) fullShare ((dats m 0 c).after 3 t) from by
        unfold Dat.leavesExact; rw [live3 t c3], after3]
      unfold outAt
      rw [scAt_later m c t h0]; dsimp only [foldAt]
      rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runLast c (grid0.coords t) _ _ _ _ _ _ _ _ _ _ _ _ c1 c2 c3 (gblk m c t) (pblk m c t) (qblk m c t) _ _).2.2.2 Set.univ _)
      isplitl [H0]; · iexact H0
      isplitl [H1]; · iexact H1
      isplitl [H2]; · iexact H2
      isplitl [H3]; · iexists _; iexact H3
      isplitl [HP]; · iexact HP
      isplitl [HG]; · iexact HG
      iintro ⟨H0, H1, H2, ⟨%eO, H3⟩, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverLastP _ _ _ _ _ _ _ _ _ _ _ _ _ _ _ _ _ _ _ _ _ _ )).trans (lastP _ _ _ _ _ _ _ _ _ _ _ _ _ _ _ _ _ _ _ _ _ _ )
          · unfold owns; iexists _; isplitr
            swap; · iexact HG
            ipureintro; exact (View.read_writes_eq_canon _ _ _ (coverLastG _ _ _ _ _ _ _ _ _ _ _ _ _ _ _ _ _ _ _ _ _ _ )).trans (lastG _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastO _ _ _ _ _ _ _ _ _ _ _ _ _ _ _ _ _ _ _ _ _ _ )).trans (lastO _ _ _ _ _ _ _ _ _ _ _ _ _ _ _ _ _ _ _ _ _ _ )
    · have c3 : ¬isLast (grid0.coords t) := fun h => h15 ((isLast_iff t).mp h)
      rw [Dat.leavesExact_idle (dats m 0 c) 3 t (idle3 t c3) (noFlush3 t c3)]
      rw [scAt_later m c t h0]; dsimp only [foldAt]
      rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runMid c (grid0.coords t) _ _ _ _ _ _ _ _ _ _ _ _ c1 c2 c3 (gblk m c t) (pblk m c t) (qblk m c t) _ _).2.2 _ Set.univ _)
      isplitl [H0]; · iexact H0
      isplitl [H1]; · iexact H1
      isplitl [H2]; · iexact H2
      isplitl [H3]; · iexact H3
      isplitl [HP]; · iexact HP
      isplitl [HG]; · iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverMidP _ _ _ _ _ _ _ _ _ _ _ _ _ _ _ _ _ _ _ _ _ _ )).trans (midP _ _ _ _ _ _ _ _ _ _ _ _ _ _ _ _ _ _ _ _ _ _ )
          · unfold owns; iexists _; isplitr
            swap; · iexact HG
            ipureintro; exact (View.read_writes_eq_canon _ _ _ (coverMidG _ _ _ _ _ _ _ _ _ _ _ _ _ _ _ _ _ _ _ _ _ _ )).trans (midG _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: what the scratches hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HP, HG⟩, Hg⟩
  isplitl [HP HG]
  · isplitl [HP]
    · iexists _; iexact HP
    · iexists _; iexact HG
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- From any memory with zero counters every weakly fair execution of the program terminates, and every
    final state has each array of the pipeline at what the proof data gives and every other buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyConds.lean ====
/-
  The kernel body's three branches over the grid, and where its result window is idle.

  The grid is 8 batches by 16 chunks, run in row-major order, so a point's chunk number is its position
  modulo 16. The first branch (the chunk is the batch's first) resets the two running minima, the second
  (it is not the first) folds the chunk's minima into them, the third (it is the last) writes the result.
-/
import proofs.«128429_j16346645528639_1_alg».proof.Proof.Gen.KernelIdeal.Launch
import proofs.«128429_j16346645528639_1_alg».proof.Proof.Gen.KernelIdeal.Skeleton
import proofs.«128429_j16346645528639_1_alg».proof.Proof.Gen.KernelIdeal.Points
import proofs.«128429_j16346645528639_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- The chunk is the batch's first. -/
abbrev isFirst (i : grid0.Coords) : Prop := (Scalar.cmpi .ne (Scalar.extui (Scalar.cmpi .eq (BitVec.ofNat 32 (i 1).val) 0#32)) 0#32) = 1#1
/-- It is so at the positions ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- The chunk is not the batch's first. -/
abbrev isLater (i : grid0.Coords) : Prop := (Scalar.cmpi .ne (Scalar.extui (Scalar.cmpi .ne (BitVec.ofNat 32 (i 1).val) 0#32)) 0#32) = 1#1
/-- It is so at the other positions. -/
theorem isLater_iff : ∀ t : Fin cfg0.N, isLater (grid0.coords t) ↔ ¬ t.val % 16 = 0 :=
  (by decide +kernel : ∀ t : Fin grid0.N, isLater (grid0.coords t) ↔ ¬ t.val % 16 = 0)

/-- The chunk is the batch's last. -/
abbrev isLast (i : grid0.Coords) : Prop := k0_cond3 i = 1#1
/-- It is so at the positions ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from a batch's last chunk the body stores nothing into the result window, -/
theorem idle3 : ∀ t : Fin cfg0.N, ¬isLast (grid0.coords t) → cfg0.idle 3 (grid0.coords t) = true := by decide +kernel
/-- and the pipeline does not write it back there; -/
theorem noFlush3 : ∀ t : Fin cfg0.N, ¬isLast (grid0.coords t) → (cfg0.win 3).flush t = false := by decide +kernel
/-- at the last chunk it does store. -/
theorem live3 : ∀ t : Fin cfg0.N, isLast (grid0.coords t) → cfg0.idle 3 (grid0.coords t) = false := by decide +kernel

/-! ## The memrefs the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The two scratch buffers that carry the running minima. -/
abbrev scP : Memref sig .tc .vmem S2048x1 .f32 := Memref.whole cc0_scratch0
abbrev scG : Memref sig .tc .vmem S2048x1 .f32 := Memref.whole cc0_scratch1

/-- What the region may use besides its windows: the two scratch buffers at some contents, and the generator register. -/
theorem PhiA_eq (c : Dev nD) :
    (Pipeline.ΦA spec0 c : sProp 𝕄)
      = iprop(iprop((∃ d, owns (c : Thread nD τ) scP fullShare d) ∗ (∃ d, owns (c : Thread nD τ) scG fullShare d)) ∗ (∃ r, prngReg c r)) := by
  unfold Pipeline.ΦA; rw [scopedRest0_eq]; simp only [scP, scG, owns_whole]; try rfl

end Cert.KernelIdeal.Body

end
-- ==== Proof.BodyData.lean ====
/-
  What the two scratch buffers and the result window hold after each grid point, and the pipeline's proof
  data over it.

  After a batch's first chunk a scratch holds that chunk's row minima; after a later chunk, the elementwise
  minimum of what it held and the chunk's row minima. At a batch's last chunk the result window receives
  the mean absolute gap of the two scratches.
-/
import proofs.«128429_j16346645528639_1_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

/-- The grid block (window 0), the first cloud's chunk (window 1), the second cloud's chunk (window 2). -/
abbrev gblk (c : Dev nD) (t : Fin cfg0.N) : Vec F S1x2048x3 .f32 := iblk m c 0 t
abbrev pblk (c : Dev nD) (t : Fin cfg0.N) : Vec F S1x3x512 .f32 := iblk m c 1 t
abbrev qblk (c : Dev nD) (t : Fin cfg0.N) : Vec F S1x3x512 .f32 := iblk m c 2 t

/-- The row minima of the point's chunk against the first cloud, and against the second. -/
def curP (c : Dev nD) (t : Fin cfg0.N) : FVec F S2048x1 .f32 := k0_pay12 (gblk m c t) (pblk m c t)
def curG (c : Dev nD) (t : Fin cfg0.N) : FVec F S2048x1 .f32 :=
  k0_pay1 (k0_pay8 (gblk m c t)) (k0_pay9 (gblk m c t)) (k0_pay10 (gblk m c t)) (k0_pay11 (gblk m c t)) (k0_pay13 (qblk m c t)) (k0_pay14 (qblk m c t)) (k0_pay15 (qblk m c t))

/-- What a reset stores into the two scratches at point `t`. -/
def resetAt (c : Dev nD) (t : Fin cfg0.N) : Vec F S2048x1 .f32 × Vec F S2048x1 .f32 :=
  (k0_pay2 (curP m c t), k0_pay3 (k0_pay8 (gblk m c t)) (k0_pay9 (gblk m c t)) (k0_pay10 (gblk m c t)) (k0_pay11 (gblk m c t)) (k0_pay13 (qblk m c t)) (k0_pay14 (qblk m c t)) (k0_pay15 (qblk m c t)))
/-- What a fold stores into them at point `t`, over what they held. -/
def foldAt (c : Dev nD) (t : Fin cfg0.N) (prev : Vec F S2048x1 .f32 × Vec F S2048x1 .f32) : Vec F S2048x1 .f32 × Vec F S2048x1 .f32 :=
  (k0_pay4 (curP m c t) prev.1, k0_pay5 (k0_pay8 (gblk m c t)) (k0_pay9 (gblk m c t)) (k0_pay10 (gblk m c t)) (k0_pay11 (gblk m c t)) (k0_pay13 (qblk m c t)) (k0_pay14 (qblk m c t)) (k0_pay15 (qblk m c t)) prev.2)

/-- The two scratches after the point at position `n`. -/
def scAt (c : Dev nD) : (n : ℕ) → n < cfg0.N → Vec F S2048x1 .f32 × Vec F S2048x1 .f32
  | 0, hn => resetAt m c ⟨0, hn⟩
  | n + 1, hn => if (n + 1) % 16 = 0 then resetAt m c ⟨n + 1, hn⟩ else foldAt m c ⟨n + 1, hn⟩ (scAt c n (Nat.lt_of_succ_lt hn))

/-- At a batch's first chunk: the reset. -/
theorem scAt_first (c : Dev nD) (t : Fin cfg0.N) (h : t.val % 16 = 0) : scAt m c t.val t.isLt = resetAt m c t := by
  obtain ⟨n, hn⟩ := t
  cases n with
  | zero => rfl
  | succ n => exact if_pos h

/-- At a later chunk: the fold over the point before. -/
theorem scAt_later (c : Dev nD) (t : Fin cfg0.N) (h : ¬t.val % 16 = 0) :
    scAt m c t.val t.isLt = foldAt m c t (scAt m c (t.val - 1) (Nat.lt_of_le_of_lt (Nat.sub_le _ _) t.isLt)) := by
  obtain ⟨n, hn⟩ := t
  cases n with
  | zero => exact absurd (Nat.zero_mod _) h
  | succ n => exact if_neg h

/-- What the result window's staging buffer holds after point `t` (consulted only at a batch's last chunk). -/
def outAt (c : Dev nD) (t : Fin cfg0.N) : Vec F S1x1x1 .f32 :=
  k0_pay6 (scAt m c t.val t.isLt).1 (scAt m c t.val t.isLt).2

/-! ## The region's invariant -/

/-- Before the first point the two scratches hold anything; before a later point, what the point before left. -/
def PhiS (c : Dev nD) : (n : ℕ) → n ≤ cfg0.N → sProp 𝕄
  | 0, _ => Pipeline.ΦA spec0 c
  | n + 1, hn => iprop(iprop(owns (c : Thread nD τ) scP fullShare (scAt m c n hn).1 ∗ owns (c : Thread nD τ) scG fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (scAt m c n hn).1 ∗ owns (c : Thread nD τ) scG fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scP fullShare (scAt m c (n - 1) (by omega)).1 ∗ owns (c : Thread nD τ) scG fullShare (scAt m c (n - 1) (by omega)).2) ∗ (∃ r, prngReg c r)) := by
  cases n with
  | zero => exact absurd rfl hz
  | succ n => rfl

/-! ## The pipeline's proof data -/

/-- The arrays as the region finds them; after the body each input's buffer at its block and the result's at
    `outAt`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.KernelIdeal.Body

end
-- ==== Proof.BodyRunFirst.lean ====
/-
  The body at a batch's first chunk: both running minima are reset to the chunk's minima.

  On whole memrefs, the three input blocks at their contents, the result window at contents it hands back
  untouched and the two scratch buffers at anything, the body runs to a state holding the inputs as they
  were and each scratch with its stores written; the stores are found by running the body.
-/
import proofs.«128429_j16346645528639_1_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runFirst (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    Σ' (LP : List (View.Piece (Elt F) S2048x1 .f32)), { LG : List (View.Piece (Elt F) S2048x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.KernelIdeal.Body

end
-- ==== Proof.BodyRunMid.lean ====
/-
  The body at a chunk that is neither a batch's first nor its last: the chunk's minima are folded into
  the two running minima, which the scratch buffers hold from the chunk before.
-/
import proofs.«128429_j16346645528639_1_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runMid (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32)
    (xs0 : Vec F S2048x1 .f32) (xs1 : Vec F S2048x1 .f32) :
    Σ' (LP : List (View.Piece (Elt F) S2048x1 .f32)), { LG : List (View.Piece (Elt F) S2048x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.KernelIdeal.Body

end
-- ==== Proof.BodyRunLast.lean ====
/-
  The body at a batch's last chunk: the chunk's minima are folded into the two running minima, and the
  mean absolute gap of the two is stored into the result window.
-/
import proofs.«128429_j16346645528639_1_alg».proof.Proof.BodyConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
noncomputable def runLast (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32)
    (xs0 : Vec F S2048x1 .f32) (xs1 : Vec F S2048x1 .f32) :
    Σ' (LO : List (View.Piece (Elt F) S1x1x1 .f32)) (LP : List (View.Piece (Elt F) S2048x1 .f32)), { LG : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LP) ∗ (∃ f, arg7.view.loc (c : Thread nD τ) ↦[arg7.view.set]{fullShare} arg7.view.writes (Elt F) f LG)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, Hk⟩
    obtain rfl := harg2.eq_unread hf0; obtain rfl := harg3.eq_unread hf1; obtain rfl := harg4.eq_unread hf2
    obtain rfl := harg6.eq_unread hf6; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    iexists _; iexact H7

end Cert.KernelIdeal.Body

end
-- ==== Proof.BodyPieces.lean ====
/-
  What each case's stores leave, read back: every store is of a whole buffer, so the buffer holds the
  stored value, a pure term of the blocks the body loaded (and, at a later chunk, of what the scratches held).
-/
import proofs.«128429_j16346645528639_1_alg».proof.Proof.BodyRunFirst
import proofs.«128429_j16346645528639_1_alg».proof.Proof.BodyRunMid
import proofs.«128429_j16346645528639_1_alg».proof.Proof.BodyRunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-! ## A batch's first chunk -/

theorem coverFirstP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) (y : S2048x1.Idx) :
    ∃ pc ∈ (runFirst (F := F) c i arg2 harg2 arg3 harg3 arg4 harg4 arg5 harg5 arg6 harg6 arg7 harg7 h1 h2 h3 x0 x1 x2).1, y ∈ pc.1.set :=
  View.cover_of_tiledL (runFirst (F := F) c i arg2 harg2 arg3 harg3 arg4 harg4 arg5 harg5 arg6 harg6 arg7 harg7 h1 h2 h3 x0 x1 x2).1 S2048x1.size (by sl_kernel_rfl) y
theorem coverFirstG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) (y : S2048x1.Idx) :
    ∃ pc ∈ (runFirst (F := F) c i arg2 harg2 arg3 harg3 arg4 harg4 arg5 harg5 arg6 harg6 arg7 harg7 h1 h2 h3 x0 x1 x2).2.1, y ∈ pc.1.set :=
  View.cover_of_tiledL (runFirst (F := F) c i arg2 harg2 arg3 harg3 arg4 harg4 arg5 harg5 arg6 harg6 arg7 harg7 h1 h2 h3 x0 x1 x2).2.1 S2048x1.size (by sl_kernel_rfl) y

theorem firstP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    View.canon (runFirst (F := F) c i arg2 harg2 arg3 harg3 arg4 harg4 arg5 harg5 arg6 harg6 arg7 harg7 h1 h2 h3 x0 x1 x2).1 = k0_pay2 (k0_pay12 x0 x1) := by
  unfold runFirst; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem firstG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : isFirst i) (h2 : ¬isLater i) (h3 : ¬isLast i)
    (x0 : Vec F S1x2048x3 .f32) (x1 : Vec F S1x3x512 .f32) (x2 : Vec F S1x3x512 .f32) :
    View.canon (runFirst (F := F) c i arg2 harg2 arg3 harg3 arg4 harg4 arg5 harg5 arg6 harg6 arg7 harg7 h1 h2 h3 x0 x1 x2).2.1 = k0_pay3 (k0_pay8 x0) (k0_pay9 x0) (k0_pay10 x0) (k0_pay11 x0) (k0_pay13 x2) (k0_pay14 x2) (k0_pay15 x2) := by
  unfold runFirst; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]

/-! ## A chunk neither first nor last -/

theorem coverMidP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) (y : S2048x1.Idx) :
    ∃ pc ∈ (runMid (F := F) c i arg2 harg2 arg3 harg3 arg4 harg4 arg5 harg5 arg6 harg6 arg7 harg7 h1 h2 h3 x0 x1 x2 xs0 xs1).1, y ∈ pc.1.set :=
  View.cover_of_tiledL (runMid (F := F) c i arg2 harg2 arg3 harg3 arg4 harg4 arg5 harg5 arg6 harg6 arg7 harg7 h1 h2 h3 x0 x1 x2 xs0 xs1).1 S2048x1.size (by sl_kernel_rfl) y
theorem coverMidG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) (y : S2048x1.Idx) :
    ∃ pc ∈ (runMid (F := F) c i arg2 harg2 arg3 harg3 arg4 harg4 arg5 harg5 arg6 harg6 arg7 harg7 h1 h2 h3 x0 x1 x2 xs0 xs1).2.1, y ∈ pc.1.set :=
  View.cover_of_tiledL (runMid (F := F) c i arg2 harg2 arg3 harg3 arg4 harg4 arg5 harg5 arg6 harg6 arg7 harg7 h1 h2 h3 x0 x1 x2 xs0 xs1).2.1 S2048x1.size (by sl_kernel_rfl) y

theorem midP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) :
    View.canon (runMid (F := F) c i arg2 harg2 arg3 harg3 arg4 harg4 arg5 harg5 arg6 harg6 arg7 harg7 h1 h2 h3 x0 x1 x2 xs0 xs1).1 = k0_pay4 (k0_pay12 x0 x1) xs0 := by
  unfold runMid; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem midG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : ¬isLast i)
    (x0 : Vec F S1x2048x3 .f32) (x1 : Vec F S1x3x512 .f32) (x2 : Vec F S1x3x512 .f32) (xs0 xs1 : Vec F S2048x1 .f32) :
    View.canon (runMid (F := F) c i arg2 harg2 arg3 harg3 arg4 harg4 arg5 harg5 arg6 harg6 arg7 harg7 h1 h2 h3 x0 x1 x2 xs0 xs1).2.1 = k0_pay5 (k0_pay8 x0) (k0_pay9 x0) (k0_pay10 x0) (k0_pay11 x0) (k0_pay13 x2) (k0_pay14 x2) (k0_pay15 x2) xs1 := by
  unfold runMid; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]

/-! ## A batch's last chunk -/

theorem coverLastO (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S1x1x1.Idx) :
    ∃ pc ∈ (runLast (F := F) c i arg2 harg2 arg3 harg3 arg4 harg4 arg5 harg5 arg6 harg6 arg7 harg7 h1 h2 h3 x0 x1 x2 xs0 xs1).1, y ∈ pc.1.set :=
  View.cover_of_tiledL (runLast (F := F) c i arg2 harg2 arg3 harg3 arg4 harg4 arg5 harg5 arg6 harg6 arg7 harg7 h1 h2 h3 x0 x1 x2 xs0 xs1).1 S1x1x1.size (by sl_kernel_rfl) y
theorem coverLastP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S2048x1.Idx) :
    ∃ pc ∈ (runLast (F := F) c i arg2 harg2 arg3 harg3 arg4 harg4 arg5 harg5 arg6 harg6 arg7 harg7 h1 h2 h3 x0 x1 x2 xs0 xs1).2.1, y ∈ pc.1.set :=
  View.cover_of_tiledL (runLast (F := F) c i arg2 harg2 arg3 harg3 arg4 harg4 arg5 harg5 arg6 harg6 arg7 harg7 h1 h2 h3 x0 x1 x2 xs0 xs1).2.1 S2048x1.size (by sl_kernel_rfl) y
theorem coverLastG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) (y : S2048x1.Idx) :
    ∃ pc ∈ (runLast (F := F) c i arg2 harg2 arg3 harg3 arg4 harg4 arg5 harg5 arg6 harg6 arg7 harg7 h1 h2 h3 x0 x1 x2 xs0 xs1).2.2.1, y ∈ pc.1.set :=
  View.cover_of_tiledL (runLast (F := F) c i arg2 harg2 arg3 harg3 arg4 harg4 arg5 harg5 arg6 harg6 arg7 harg7 h1 h2 h3 x0 x1 x2 xs0 xs1).2.2.1 S2048x1.size (by sl_kernel_rfl) y

theorem lastP (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).2.1 = k0_pay4 (k0_pay12 x0 x1) xs0 := by
  unfold runLast; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
theorem lastG (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).2.2.1 = k0_pay5 (k0_pay8 x0) (k0_pay9 x0) (k0_pay10 x0) (k0_pay11 x0) (k0_pay13 x2) (k0_pay14 x2) (k0_pay15 x2) xs1 := by
  unfold runLast; dsimp only; sl_unfold_words
  rw [View.canon_unit_zero hz2]
  simp only [View.readAt_eq_ld, Memref.IsWhole.read_unread, View.ld_unit_zero (S := S1x2048x3) hz3, View.ld_unit_zero (S := S1x3x512) hz3, View.ld_unit_zero (S := S2048x1) hz2]
/-- The result window receives the mean absolute gap of the two scratches as the fold just left them. -/
theorem lastO (c : Dev nD) (i : grid0.Coords) (arg2 : Memref sig .tc .vmem S1x2048x3 .f32) (harg2 : arg2.IsWhole) (arg3 : Memref sig .tc .vmem S1x3x512 .f32) (harg3 : arg3.IsWhole) (arg4 : Memref sig .tc .vmem S1x3x512 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x1 .f32) (harg7 : arg7.IsWhole)
    (h1 : ¬isFirst i) (h2 : isLater i) (h3 : isLast i)
    (x0 : Vec F S1x2048x3 .f32) (x1 : Vec F S1x3x512 .f32) (x2 : Vec F S1x3x512 .f32) (xs0 xs1 : Vec F S2048x1 .f32) :
    View.canon (runLast (F := F) c i arg2 harg2 arg3 harg3 arg4 harg4 arg5 harg5 arg6 harg6 arg7 harg7 h1 h2 h3 x0 x1 x2 xs0 xs1).1
      = k0_pay6 (k0_pay4 (k0_pay12 x0 x1) xs0) (k0_pay5 (k0_pay8 x0) (k0_pay9 x0) (k0_pay10 x0) (k0_pay11 x0) (k0_pay13 x2) (k0_pay14 x2) (k0_pay15 x2) xs1) := by
  unfold runLast; dsimp only; sl_unfold_words
  rw [View.canon_unit_zero hz3]
  simp only [View.readCov_unit_zero (S := S2048x1) _ hz2, View.readAt_eq_ld, Memref.IsWhole.read_unread, View.ld_unit_zero (S := S1x2048x3) hz3, View.ld_unit_zero (S := S1x3x512) hz3, View.ld_unit_zero (S := S2048x1) hz2]

end Cert.KernelIdeal.Body

end
-- ==== Proof.BodyObl.lean ====
/-
  The body obligation at every grid point, the region's run, and the frame.

  At each point the inputs' staging buffers hold their blocks; the position modulo 16 says which branches
  the body takes; the invariant hands it the two scratches at what the point before left (at anything before
  the first point) and takes them back at this point's contents.
-/
import proofs.«128429_j16346645528639_1_alg».proof.Proof.BodyData
import proofs.«128429_j16346645528639_1_alg».proof.Proof.BodyPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 128 := lt_of_lt_of_eq t.isLt (show cfg0.N = 128 from N_0)
  by_cases h0 : t.val % 16 = 0
  · have c1 : isFirst (grid0.coords t) := (isFirst_iff t).mpr h0
    have c2 : ¬isLater (grid0.coords t) := fun h => (isLater_iff t).mp h h0
    have c3 : ¬isLast (grid0.coords t) := fun h => by have := (isLast_iff t).mp h; omega
    rw [Dat.leavesExact_idle (dats m 0 c) 3 t (idle3 t c3) (noFlush3 t c3)]
    rw [scAt_first m c t h0]; dsimp only [resetAt]
    by_cases hz : t.val = 0
    · rw [PhiS_castSucc m c t, PhiS_zero m c _ _ hz, PhiA_eq]
      iintro ⟨⟨⟨HP, HG⟩, Hg⟩, Ho, ⟨%d0, H0⟩, ⟨%d1, H1⟩, ⟨%d2, H2⟩, ⟨%d3, H3⟩⟩
      iapply ((runFirst c (grid0.coords t) _ _ _ _ _ _ _ _ _ _ _ _ c1 c2 c3 (gblk m c t) (pblk m c t) (qblk m c t)).2.2 _ Set.univ _)
      isplitl [H0]; · iexact H0
      isplitl [H1]; · iexact H1
      isplitl [H2]; · iexact H2
      isplitl [H3]; · iexact H3
      isplitl [HP]; · iexact HP
      isplitl [HG]; · iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverFirstP _ _ _ _ _ _ _ _ _ _ _ _ _ _ _ _ _ _ _ _ )).trans (firstP _ _ _ _ _ _ _ _ _ _ _ _ _ _ _ _ _ _ _ _ )
          · unfold owns; iexists _; isplitr
            swap; · iexact HG
            ipureintro; exact (View.read_writes_eq_canon _ _ _ (coverFirstG _ _ _ _ _ _ _ _ _ _ _ _ _ _ _ _ _ _ _ _ )).trans (firstG _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runFirst c (grid0.coords t) _ _ _ _ _ _ _ _ _ _ _ _ c1 c2 c3 (gblk m c t) (pblk m c t) (qblk m c t)).2.2 _ Set.univ _)
      isplitl [H0]; · iexact H0
      isplitl [H1]; · iexact H1
      isplitl [H2]; · iexact H2
      isplitl [H3]; · iexact H3
      isplitl [HP]; · iexists _; iexact HP
      isplitl [HG]; · iexists _; iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverFirstP _ _ _ _ _ _ _ _ _ _ _ _ _ _ _ _ _ _ _ _ )).trans (firstP _ _ _ _ _ _ _ _ _ _ _ _ _ _ _ _ _ _ _ _ )
          · unfold owns; iexists _; isplitr
            swap; · iexact HG
            ipureintro; exact (View.read_writes_eq_canon _ _ _ (coverFirstG _ _ _ _ _ _ _ _ _ _ _ _ _ _ _ _ _ _ _ _ )).trans (firstG _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have c1 : ¬isFirst (grid0.coords t) := fun h => h0 ((isFirst_iff t).mp h)
    have c2 : isLater (grid0.coords t) := (isLater_iff t).mpr h0
    have hz : t.val ≠ 0 := fun h => h0 (by rw [h])
    by_cases h15 : t.val % 16 = 15
    · have c3 : isLast (grid0.coords t) := (isLast_iff t).mpr h15
      rw [show (dats m 0 c).leavesExact 3 t = owns (c : Thread nD τ) (ms3 t) fullShare ((dats m 0 c).after 3 t) from by
        unfold Dat.leavesExact; rw [live3 t c3], after3]
      unfold outAt
      rw [scAt_later m c t h0]; dsimp only [foldAt]
      rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runLast c (grid0.coords t) _ _ _ _ _ _ _ _ _ _ _ _ c1 c2 c3 (gblk m c t) (pblk m c t) (qblk m c t) _ _).2.2.2 Set.univ _)
      isplitl [H0]; · iexact H0
      isplitl [H1]; · iexact H1
      isplitl [H2]; · iexact H2
      isplitl [H3]; · iexists _; iexact H3
      isplitl [HP]; · iexact HP
      isplitl [HG]; · iexact HG
      iintro ⟨H0, H1, H2, ⟨%eO, H3⟩, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverLastP _ _ _ _ _ _ _ _ _ _ _ _ _ _ _ _ _ _ _ _ _ _ )).trans (lastP _ _ _ _ _ _ _ _ _ _ _ _ _ _ _ _ _ _ _ _ _ _ )
          · unfold owns; iexists _; isplitr
            swap; · iexact HG
            ipureintro; exact (View.read_writes_eq_canon _ _ _ (coverLastG _ _ _ _ _ _ _ _ _ _ _ _ _ _ _ _ _ _ _ _ _ _ )).trans (lastG _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastO _ _ _ _ _ _ _ _ _ _ _ _ _ _ _ _ _ _ _ _ _ _ )).trans (lastO _ _ _ _ _ _ _ _ _ _ _ _ _ _ _ _ _ _ _ _ _ _ )
    · have c3 : ¬isLast (grid0.coords t) := fun h => h15 ((isLast_iff t).mp h)
      rw [Dat.leavesExact_idle (dats m 0 c) 3 t (idle3 t c3) (noFlush3 t c3)]
      rw [scAt_later m c t h0]; dsimp only [foldAt]
      rw [PhiS_castSucc m c t, PhiS_pos m c _ _ hz]
      iintro ⟨⟨⟨HP, HG⟩, Hg⟩, Ho, ⟨%d0, H0⟩, ⟨%d1, H1⟩, ⟨%d2, H2⟩, ⟨%d3, H3⟩⟩
      iapply ((runMid c (grid0.coords t) _ _ _ _ _ _ _ _ _ _ _ _ c1 c2 c3 (gblk m c t) (pblk m c t) (qblk m c t) _ _).2.2 _ Set.univ _)
      isplitl [H0]; · iexact H0
      isplitl [H1]; · iexact H1
      isplitl [H2]; · iexact H2
      isplitl [H3]; · iexact H3
      isplitl [HP]; · iexact HP
      isplitl [HG]; · iexact HG
      iintro ⟨H0, H1, H2, H3, ⟨%eP, HP⟩, ⟨%eG, HG⟩⟩
      isplitl [HP HG Hg]
      · isplitl [HP HG]
        · isplitl [HP]
          · unfold owns; iexists _; isplitr
            swap; · iexact HP
            ipureintro; exact (View.read_writes_eq_canon _ _ _ (coverMidP _ _ _ _ _ _ _ _ _ _ _ _ _ _ _ _ _ _ _ _ _ _ )).trans (midP _ _ _ _ _ _ _ _ _ _ _ _ _ _ _ _ _ _ _ _ _ _ )
          · unfold owns; iexists _; isplitr
            swap; · iexact HG
            ipureintro; exact (View.read_writes_eq_canon _ _ _ (coverMidG _ _ _ _ _ _ _ _ _ _ _ _ _ _ _ _ _ _ _ _ _ _ )).trans (midG _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: what the scratches hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HP, HG⟩, Hg⟩
  isplitl [HP HG]
  · isplitl [HP]
    · iexists _; iexact HP
    · iexists _; iexact HG
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- From any memory with zero counters every weakly fair execution of the program terminates, and every
    final state has each array of the pipeline at what the proof data gives and every other buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The value both programs compute, as one function of the three argument arrays.

  For a batch `b`, a grid point `n` and a cloud point `k`, the distance is
  `√(max ((|g|² + |p|²) − 2·⟨g, p⟩) 0)`, the squared norms and the inner product taken over the three
  coordinates. `nearest` is its minimum over the 8192 cloud points, and the result at `b` is the sum over
  the 2048 grid points of `|nearest preds − nearest gts|`, divided by 2048.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: 8 batches of 8192 points of 3 coordinates. -/
abbrev Cloud := (⟨3, ![8, 8192, 3]⟩ : Shape).Idx → EReal
/-- The grid: 8 batches of 2048 points of 3 coordinates. -/
abbrev Grid := (⟨3, ![8, 2048, 3]⟩ : Shape).Idx → EReal

/-- The word of `2.0`, `0.0`, `+∞` and `2048.0` as both programs print them. -/
abbrev two : EReal := Ideal.ofBits .f32 0x40000000#32
abbrev zero : EReal := Ideal.ofBits .f32 0x00000000#32
abbrev big : EReal := Ideal.ofBits .f32 0x45000000#32

/-- The distance from `(a, b, c)` to `(p, q, r)` as both programs compute it. -/
def dist (a b c p q r : EReal) : EReal :=
  Ideal.sqrt (max (((a * a + b * b + c * c) + (p * p + q * q + r * r)) - two * (a * p + b * q + c * r)) zero)

/-- The distance from grid point `n` to cloud point `k` in batch `b`. -/
def cloudDist (pts : Cloud) (grid : Grid) (b : Fin 8) (n : Fin 2048) (k : Fin 8192) : EReal :=
  dist (grid (ix3 b n 0)) (grid (ix3 b n 1)) (grid (ix3 b n 2)) (pts (ix3 b k 0)) (pts (ix3 b k 1)) (pts (ix3 b k 2))

/-- The distance from grid point `n` to the nearest cloud point. -/
def nearest (pts : Cloud) (grid : Grid) (b : Fin 8) (n : Fin 2048) : EReal :=
  Finset.univ.inf (cloudDist pts grid b n)

/-- A value is below the nearest distance exactly when it is below every distance. -/
theorem le_nearest_iff (pts : Cloud) (grid : Grid) (b : Fin 8) (n : Fin 2048) (z : EReal) :
    z ≤ nearest pts grid b n ↔ ∀ k, z ≤ cloudDist pts grid b n k := by
  unfold nearest; simp [Finset.le_inf_iff]

/-- The gap between the two nearest distances at a grid point, in absolute value. -/
def gap (gts preds : Cloud) (grid : Grid) (b : Fin 8) (n : Fin 2048) : EReal :=
  max (nearest preds grid b n - nearest gts grid b n) (-(nearest preds grid b n - nearest gts grid b n))

/-- The result at batch `b`: the mean gap over the grid points. -/
def meanGap (gts preds : Cloud) (grid : Grid) (b : Fin 8) : EReal :=
  Ideal.div (∑ n : Fin 2048, gap gts preds grid b n) big

/-- The result array. -/
def G (gts preds : Cloud) (grid : Grid) : (⟨1, ![8]⟩ : Shape).Idx → EReal := fun i => meanGap gts preds grid (i 0)

/-- The word `0x7F800000` is `+∞`, the top of the extended reals. -/
theorem ofBits_inf : Ideal.ofBits .f32 0x7F800000#32 = (⊤ : EReal) := by simp [Ideal.ofBits, Ideal.ieee]

end Cert.Chamfer

end
-- ==== Proof.KBlocks.lean ====
/-
  The three input blocks at a grid point, read at an index, as entries of the argument arrays.

  The point at position `t` is batch `t / 16`, chunk `t % 16`. The grid block is the batch's 2048 × 3 slab of
  the grid array; each cloud's block is rows `512·(t % 16) … 512·(t % 16) + 511` of the batch's cloud, transposed
  (the host transposes each cloud to 3 × 8192 before the region).
-/
import proofs.«128429_j16346645528639_1_alg».proof.Proof.BodyData
import proofs.«128429_j16346645528639_1_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The three argument arrays as launched on core `c`: the first cloud, the second cloud, the grid. -/
abbrev gtsOf (c : Dev nD) : Cert.Chamfer.Cloud := m ((c.tc : Thread nD τ).loc main_arg0)
abbrev predsOf (c : Dev nD) : Cert.Chamfer.Cloud := m ((c.tc : Thread nD τ).loc main_arg1)
abbrev gridOf (c : Dev nD) : Cert.Chamfer.Grid := m ((c.tc : Thread nD τ).loc main_arg2)

/-- The batch of the point at position `t`. -/
def batchOf (t : Fin cfg0.N) : Fin 8 := ⟨t.val / 16, by have := t.isLt; have hN : cfg0.N = 128 := N_0; omega⟩
/-- The cloud row that column `j` of the point's chunk holds. -/
def rowOf (t : Fin cfg0.N) (j : Fin 512) : Fin 8192 := ⟨512 * (t.val % 16) + j.val, by have := j.isLt; omega⟩

/-- The index maps over the grid: every window's block index on the batch axis is `t / 16`; the grid window's other
    two are `0`; a cloud window's are `0` on the coordinate axis and `t % 16` on the row axis. -/
theorem idx_grid : ∀ t : Fin cfg0.N, win0_0.index t (0 : Fin 3) = t.val / 16 ∧ win0_0.index t (1 : Fin 3) = 0
    ∧ win0_0.index t (2 : Fin 3) = 0 :=
  (by decide +kernel : ∀ t : Fin grid0.N, _)
theorem idx_preds : ∀ t : Fin cfg0.N, win0_1.index t (0 : Fin 3) = t.val / 16 ∧ win0_1.index t (1 : Fin 3) = 0
    ∧ win0_1.index t (2 : Fin 3) = t.val % 16 :=
  (by decide +kernel : ∀ t : Fin grid0.N, _)
theorem idx_gts : ∀ t : Fin cfg0.N, win0_2.index t (0 : Fin 3) = t.val / 16 ∧ win0_2.index t (1 : Fin 3) = 0
    ∧ win0_2.index t (2 : Fin 3) = t.val % 16 :=
  (by decide +kernel : ∀ t : Fin grid0.N, _)

/-- When the region is entered, the second cloud's transposed copy is the transpose (last two axes swapped) of the
    second cloud as launched, -/
theorem predsT_eq (c : Dev nD) : (V m c main_v0 : S8x3x8192.Idx → EReal)
    = transpose S8x3x8192 [0, 2, 1] (m ((c : Thread nD τ).loc main_arg1)) transposes_S8x8192x3_S8x3x8192_0_2_1 := by
  show StableHlo.after hostOps0 (fun b => m (c, b)) (Proc.devRef .tc main_v0) = _
  after_results
/-- and the first cloud's is the transpose of the first cloud as launched. -/
theorem gtsT_eq (c : Dev nD) : (V m c main_v1 : S8x3x8192.Idx → EReal)
    = transpose S8x3x8192 [0, 2, 1] (m ((c : Thread nD τ).loc main_arg0)) transposes_S8x8192x3_S8x3x8192_0_2_1 := by
  show StableHlo.after hostOps0 (fun b => m (c, b)) (Proc.devRef .tc main_v1) = _
  after_results

/-- The grid block's entry `(n, k)` is the grid array's at `(batch, n, k)`. -/
theorem gblk_at (c : Dev nD) (t : Fin cfg0.N) (n : Fin 2048) (k : Fin 3) :
    gblk m c t (ix3 0 n k) = gridOf m c (ix3 (batchOf t) n k) := by
  obtain ⟨e0, e1, e2⟩ := idx_grid t
  -- the block's entry `(0, n, k)` sits at the array's index `(t / 16, n, k)`: per axis, block index × block size + offset
  have hi : ((cfg0.win 0).blk t).view.emb (ix3 (0 : Fin 1) n k) = ix3 (batchOf t) n k := by
    funext a; apply Fin.ext
    match a with
    | ⟨0, _⟩ => show win0_0.index t (0 : Fin 3) * 1 + 1 * 0 = t.val / 16; omega
    | ⟨1, _⟩ => show win0_0.index t (1 : Fin 3) * 2048 + 1 * n.val = n.val; omega
    | ⟨2, _⟩ => show win0_0.index t (2 : Fin 3) * 3 + 1 * k.val = k.val; omega
  show V m c main_arg2 (((cfg0.win 0).blk t).view.emb (ix3 (0 : Fin 1) n k)) = _
  rw [hi, V_main_arg2]

/-- The second cloud's chunk, entry `(r, j)`: the cloud's coordinate `r` of row `rowOf t j`. -/
theorem pblk_at (c : Dev nD) (t : Fin cfg0.N) (r : Fin 3) (j : Fin 512) :
    pblk m c t (ix3 0 r j) = predsOf m c (ix3 (batchOf t) (rowOf t j) r) := by
  obtain ⟨e0, e1, e2⟩ := idx_preds t
  -- the block's entry `(0, r, j)` sits at the transposed array's index `(t / 16, r, 512·(t % 16) + j)`
  have hi : ((cfg0.win 1).blk t).view.emb (ix3 (0 : Fin 1) r j) = ix3 (batchOf t) r (rowOf t j) := by
    funext a; apply Fin.ext
    match a with
    | ⟨0, _⟩ => show win0_1.index t (0 : Fin 3) * 1 + 1 * 0 = t.val / 16; omega
    | ⟨1, _⟩ => show win0_1.index t (1 : Fin 3) * 3 + 1 * r.val = r.val; omega
    | ⟨2, _⟩ => show win0_1.index t (2 : Fin 3) * 512 + 1 * j.val = 512 * (t.val % 16) + j.val; omega
  show V m c main_v0 (((cfg0.win 1).blk t).view.emb (ix3 (0 : Fin 1) r j)) = _
  rw [hi, predsT_eq]
  exact transpose_ix3_021_apply _ _ (batchOf t) r (rowOf t j)

/-- The first cloud's chunk likewise. -/
theorem qblk_at (c : Dev nD) (t : Fin cfg0.N) (r : Fin 3) (j : Fin 512) :
    qblk m c t (ix3 0 r j) = gtsOf m c (ix3 (batchOf t) (rowOf t j) r) := by
  obtain ⟨e0, e1, e2⟩ := idx_gts t
  have hi : ((cfg0.win 2).blk t).view.emb (ix3 (0 : Fin 1) r j) = ix3 (batchOf t) r (rowOf t j) := by
    funext a; apply Fin.ext
    match a with
    | ⟨0, _⟩ => show win0_2.index t (0 : Fin 3) * 1 + 1 * 0 = t.val / 16; omega
    | ⟨1, _⟩ => show win0_2.index t (1 : Fin 3) * 3 + 1 * r.val = r.val; omega
    | ⟨2, _⟩ => show win0_2.index t (2 : Fin 3) * 512 + 1 * j.val = 512 * (t.val % 16) + j.val; omega
  show V m c main_v1 (((cfg0.win 2).blk t).view.emb (ix3 (0 : Fin 1) r j)) = _
  rw [hi, gtsT_eq]
  exact transpose_ix3_021_apply _ _ (batchOf t) r (rowOf t j)

end Cert.KernelIdeal.KValue

end
-- ==== Proof.PayAt.lean ====
/-
  The kernel body's stored values read at an index, at the exact instance: a chunk's running minimum of
  distances, the elementwise minimum with what a scratch held, and the mean absolute gap.
-/
import proofs.«128429_j16346645528639_1_alg».proof.Proof.Gen.KernelIdeal.Skeleton
import proofs.«128429_j16346645528639_1_alg».proof.Proof.Spec
import Idealize.ShloMosaic.PureOps.Reduce
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayAt

open Cert.KernelIdeal Cert.KernelIdeal.Gen Idealize.ShloMosaic Idealize.ShloMosaic.ValueIdx

/-- The minimum over a chunk's 512 cloud points of the distance from grid point `n`: `g` is the grid block
    (1 × 2048 × 3), `p` the transposed chunk of the cloud (1 × 3 × 512). -/
def chunkMin (g : Vec Ideal S1x2048x3 .f32) (p : Vec Ideal S1x3x512 .f32) (n : Fin 2048) : EReal :=
  Finset.univ.inf fun j : Fin 512 =>
    Cert.Chamfer.dist (g (ix3 0 n 0)) (g (ix3 0 n 1)) (g (ix3 0 n 2)) (p (ix3 0 0 j)) (p (ix3 0 1 j)) (p (ix3 0 2 j))

/-! ## Layout operations at an index: the two column forms -/

section Layout
variable {α : Type}

/-- A vector of length `a` viewed as an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane minimum -/

/-- A fold of `min` from the top element is the infimum. -/
theorem fold_min_top_eq_inf {ι : Type*} (s : Finset ι) (f : ι → EReal) : s.fold min ⊤ f = s.inf f :=
  eq_of_forall_le_iff fun c => by
    rw [Finset.le_fold_min, Finset.le_inf_iff]; simp

/-- A minimum reduction over one axis, at the exact instance: the fold of `min` from the accumulator's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the 512 lanes of a 2048 × 512 array from `+∞`, at row `n`: the infimum of the row. -/
theorem laneMin_apply (x : FVec Ideal S2048x512 .f32) (h : S2048x512.Reduces [1] S2048) (hφ : FKind.Formats .f32)
    (hacc : (0x7F800000#32 : BitVec 32) = FKind.minimumf.neutral .f32 hφ) (n : Fin 2048) :
    multiReduction (F := Ideal) .minimumf [1] S2048 x 0x7F800000#32 h hφ hacc (ix1 n)
      = Finset.univ.inf fun j : Fin 512 => x (ix2 n j) := by
  refine (multiReduction_minimumf_single x _ h hφ hacc _).trans ?_
  rw [Ideal.ofBits_def, Cert.Chamfer.ofBits_inf, fold_min_top_eq_inf]
  exact Finset.inf_congr rfl fun j _ => congrArg x (by
    funext ax
    match ax with
    | ⟨0, _⟩ => exact Fin.ext rfl
    | ⟨1, _⟩ => exact Fin.ext rfl)

/-! ## The elementwise square root and absolute value at an index -/

/-- A square root at an index is the square root of the element. -/
theorem sqrt_apply {s : Shape} {φ : FTy} (a : FVec Ideal s φ) (i : s.Idx) : sqrt a i = Ideal.sqrt (a i) := rfl
/-- An absolute value at an index is the larger of the element and its negation. -/
theorem absf_apply {s : Shape} {φ : FTy} (a : FVec Ideal s φ) (i : s.Idx) : absf a i = max (a i) (-(a i)) := rfl

/-! ## A chunk's row minimum -/

/-- The row minimum as the body computes it from the three grid columns `x0 x1 x2` (2048 × 1), their squared norm
    `xx`, and the three rows `y0 y1 y2` (1 × 512) of a chunk: `(xx + |y|²) − 2·⟨x, y⟩` on the 2048 × 512 grid, its maximum
    with zero, the square root, the minimum over the 512 lanes from `+∞`, as a column. -/
def rowMin (x0 x1 x2 xx : FVec Ideal S2048x1 .f32) (y0 y1 y2 : FVec Ideal S1x512 .f32) : FVec Ideal S2048x1 .f32 :=
  shapeCast S2048x1
    (multiReduction (F := Ideal) .minimumf [1] S2048
      (sqrt (maximumf
        (subf
          (addf (broadcastTo S2048x512 xx broadcasts_S2048x1_S2048x512)
            (broadcastTo S2048x512 (addf (addf (mulf y0 y0) (mulf y1 y1)) (mulf y2 y2)) broadcasts_S1x512_S2048x512))
          (mulf (broadcast S2048x512 (Scalar.ofBits (F := Ideal) .f32 0x40000000#32))
            (addf
              (addf
                (mulf (broadcastTo S2048x512 x0 broadcasts_S2048x1_S2048x512) (broadcastTo S2048x512 y0 broadcasts_S1x512_S2048x512))
                (mulf (broadcastTo S2048x512 x1 broadcasts_S2048x1_S2048x512) (broadcastTo S2048x512 y1 broadcasts_S1x512_S2048x512)))
              (mulf (broadcastTo S2048x512 x2 broadcasts_S2048x1_S2048x512) (broadcastTo S2048x512 y2 broadcasts_S1x512_S2048x512)))))
        (broadcast S2048x512 (Scalar.ofBits (F := Ideal) .f32 0x00000000#32))))
      0x7F800000#32 reduces_S2048x512_S2048 (.inl rfl) rfl)
    shapeCasts_S2048_S2048x1

/-- The row minimum at row `n`: the infimum over the 512 lanes of the distance written with the columns' and rows'
    elements. -/
theorem rowMin_apply (x0 x1 x2 xx : FVec Ideal S2048x1 .f32) (y0 y1 y2 : FVec Ideal S1x512 .f32) (n : Fin 2048) :
    rowMin x0 x1 x2 xx y0 y1 y2 (ix2 n 0)
      = Finset.univ.inf fun j : Fin 512 =>
          Ideal.sqrt (max
            ((xx (ix2 n 0) + ((y0 (ix2 0 j) * y0 (ix2 0 j) + y1 (ix2 0 j) * y1 (ix2 0 j)) + y2 (ix2 0 j) * y2 (ix2 0 j)))
              - Cert.Chamfer.two * ((x0 (ix2 n 0) * y0 (ix2 0 j) + x1 (ix2 n 0) * y1 (ix2 0 j)) + x2 (ix2 n 0) * y2 (ix2 0 j)))
            Cert.Chamfer.zero) := by
  unfold rowMin
  refine (shapeCast_a_a1_apply _ _ n 0).trans ?_
  refine (laneMin_apply _ _ _ _ n).trans ?_
  refine Finset.inf_congr rfl fun j _ => ?_
  simp only [sqrt_apply, maximumf_apply, subf_apply, addf_apply, mulf_apply, broadcast_apply,
    broadcastTo_a1_ab_apply, broadcastTo_1b_ab_apply]
  rfl

/-- The row minimum over columns and rows that read a grid block `g` and a transposed chunk `p` is the chunk's minimum
    distance. -/
theorem rowMin_eq_chunkMin (g : Vec Ideal S1x2048x3 .f32) (p : Vec Ideal S1x3x512 .f32)
    (x0 x1 x2 xx : FVec Ideal S2048x1 .f32) (y0 y1 y2 : FVec Ideal S1x512 .f32)
    (hx0 : ∀ n : Fin 2048, x0 (ix2 n 0) = g (ix3 0 n 0)) (hx1 : ∀ n : Fin 2048, x1 (ix2 n 0) = g (ix3 0 n 1))
    (hx2 : ∀ n : Fin 2048, x2 (ix2 n 0) = g (ix3 0 n 2))
    (hxx : ∀ n : Fin 2048, xx (ix2 n 0)
      = (g (ix3 0 n 0) * g (ix3 0 n 0) + g (ix3 0 n 1) * g (ix3 0 n 1)) + g (ix3 0 n 2) * g (ix3 0 n 2))
    (hy0 : ∀ j : Fin 512, y0 (ix2 0 j) = p (ix3 0 0 j)) (hy1 : ∀ j : Fin 512, y1 (ix2 0 j) = p (ix3 0 1 j))
    (hy2 : ∀ j : Fin 512, y2 (ix2 0 j) = p (ix3 0 2 j)) (n : Fin 2048) :
    rowMin x0 x1 x2 xx y0 y1 y2 (ix2 n 0) = chunkMin g p n := by
  rw [rowMin_apply]
  unfold chunkMin Cert.Chamfer.dist
  refine Finset.inf_congr rfl fun j _ => ?_
  rw [hx0, hx1, hx2, hxx, hy0, hy1, hy2]

/-! ## The grid block's columns and a chunk's rows at an index -/

/-- The block without its leading unit axis. -/
theorem pay7_at (g : Vec Ideal S1x2048x3 .f32) (n : Fin 2048) (c : Fin 3) : k0_pay7 (F := Ideal) g (ix2 n c) = g (ix3 0 n c) := by
  unfold k0_pay7
  exact shapeCast_1ab_ab_apply g _ n c

/-- The first coordinate's column. -/
theorem pay8_at (g : Vec Ideal S1x2048x3 .f32) (n : Fin 2048) : k0_pay8 (F := Ideal) g (ix2 n 0) = g (ix3 0 n 0) := by
  unfold k0_pay8
  exact (slice2_axis1_apply 0 _ _ n 0 0 rfl).trans (pay7_at g n 0)

/-- The second coordinate's column. -/
theorem pay9_at (g : Vec Ideal S1x2048x3 .f32) (n : Fin 2048) : k0_pay9 (F := Ideal) g (ix2 n 0) = g (ix3 0 n 1) := by
  unfold k0_pay9
  exact (slice2_axis1_apply 1 _ _ n 0 1 rfl).trans (pay7_at g n 1)

/-- The third coordinate's column. -/
theorem pay10_at (g : Vec Ideal S1x2048x3 .f32) (n : Fin 2048) : k0_pay10 (F := Ideal) g (ix2 n 0) = g (ix3 0 n 2) := by
  unfold k0_pay10
  exact (slice2_axis1_apply 2 _ _ n 0 2 rfl).trans (pay7_at g n 2)

/-- The grid points' squared norms. -/
theorem pay11_at (g : Vec Ideal S1x2048x3 .f32) (n : Fin 2048) :
    k0_pay11 (F := Ideal) g (ix2 n 0)
      = (g (ix3 0 n 0) * g (ix3 0 n 0) + g (ix3 0 n 1) * g (ix3 0 n 1)) + g (ix3 0 n 2) * g (ix3 0 n 2) := by
  show (k0_pay8 (F := Ideal) g (ix2 n 0) * k0_pay8 (F := Ideal) g (ix2 n 0)
      + k0_pay9 (F := Ideal) g (ix2 n 0) * k0_pay9 (F := Ideal) g (ix2 n 0))
      + k0_pay10 (F := Ideal) g (ix2 n 0) * k0_pay10 (F := Ideal) g (ix2 n 0) = _
  rw [pay8_at, pay9_at, pay10_at]

/-- A transposed chunk without its leading unit axis. -/
theorem chunk_at (p : Vec Ideal S1x3x512 .f32) (h : S1x3x512.ShapeCasts S3x512) (r : Fin 3) (j : Fin 512) :
    shapeCast S3x512 p h (ix2 r j) = p (ix3 0 r j) :=
  shapeCast_1ab_ab_apply p h r j

/-- Row `0` of a 3 × 512 array as a 1 × 512 array. -/
theorem row0_at (v : FVec Ideal S3x512 .f32) (h : S3x512.Slices ![0, 0] S1x512) (j : Fin 512) :
    extractStridedSlice S1x512 ![0, 0] v h (ix2 0 j) = v (ix2 0 j) :=
  slice2_axis0_apply 0 v h 0 j 0 rfl
/-- Row `1`. -/
theorem row1_at (v : FVec Ideal S3x512 .f32) (h : S3x512.Slices ![1, 0] S1x512) (j : Fin 512) :
    extractStridedSlice S1x512 ![1, 0] v h (ix2 0 j) = v (ix2 1 j) :=
  slice2_axis0_apply 1 v h 0 j 1 rfl
/-- Row `2`. -/
theorem row2_at (v : FVec Ideal S3x512 .f32) (h : S3x512.Slices ![2, 0] S1x512) (j : Fin 512) :
    extractStridedSlice S1x512 ![2, 0] v h (ix2 0 j) = v (ix2 2 j) :=
  slice2_axis0_apply 2 v h 0 j 2 rfl

/-- The first chunk minimum the body computes (from windows 0 and 1), at row `n`. -/
theorem pay12_at (g : Vec Ideal S1x2048x3 .f32) (p : Vec Ideal S1x3x512 .f32) (n : Fin 2048) :
    k0_pay12 (F := Ideal) g p (ix2 n 0) = chunkMin g p n := by
  have e : k0_pay12 (F := Ideal) g p
      = rowMin (k0_pay8 g) (k0_pay9 g) (k0_pay10 g) (k0_pay11 g)
          (extractStridedSlice S1x512 ![0, 0] (shapeCast S3x512 p shapeCasts_S1x3x512_S3x512) slices_S3x512_o0_0_S1x512)
          (extractStridedSlice S1x512 ![1, 0] (shapeCast S3x512 p shapeCasts_S1x3x512_S3x512) slices_S3x512_o1_0_S1x512)
          (extractStridedSlice S1x512 ![2, 0] (shapeCast S3x512 p shapeCasts_S1x3x512_S3x512) slices_S3x512_o2_0_S1x512) := rfl
  rw [e]
  exact rowMin_eq_chunkMin g p _ _ _ _ _ _ _ (pay8_at g) (pay9_at g) (pay10_at g) (pay11_at g)
    (fun j => (row0_at _ _ j).trans (chunk_at p _ 0 j)) (fun j => (row1_at _ _ j).trans (chunk_at p _ 1 j))
    (fun j => (row2_at _ _ j).trans (chunk_at p _ 2 j)) n

/-- The second chunk without its leading unit axis. -/
theorem pay13_at (q : Vec Ideal S1x3x512 .f32) (r : Fin 3) (j : Fin 512) : k0_pay13 (F := Ideal) q (ix2 r j) = q (ix3 0 r j) := by
  unfold k0_pay13
  exact chunk_at q _ r j

/-- Its first row. -/
theorem pay14_at (q : Vec Ideal S1x3x512 .f32) (j : Fin 512) : k0_pay14 (F := Ideal) q (ix2 0 j) = q (ix3 0 0 j) := by
  unfold k0_pay14
  exact (row0_at _ _ j).trans (pay13_at q 0 j)

/-- Its second row. -/
theorem pay15_at (q : Vec Ideal S1x3x512 .f32) (j : Fin 512) : k0_pay15 (F := Ideal) q (ix2 0 j) = q (ix3 0 1 j) := by
  unfold k0_pay15
  exact (row1_at _ _ j).trans (pay13_at q 1 j)

/-- The second chunk minimum the body computes (from windows 0 and 2), at row `n`. -/
theorem pay1_at (g : Vec Ideal S1x2048x3 .f32) (q : Vec Ideal S1x3x512 .f32) (n : Fin 2048) :
    k0_pay1 (F := Ideal) (k0_pay8 g) (k0_pay9 g) (k0_pay10 g) (k0_pay11 g) (k0_pay13 q) (k0_pay14 q) (k0_pay15 q) (ix2 n 0)
      = chunkMin g q n := by
  have e : k0_pay1 (F := Ideal) (k0_pay8 g) (k0_pay9 g) (k0_pay10 g) (k0_pay11 g) (k0_pay13 q) (k0_pay14 q) (k0_pay15 q)
      = rowMin (k0_pay8 g) (k0_pay9 g) (k0_pay10 g) (k0_pay11 g) (k0_pay14 q) (k0_pay15 q)
          (extractStridedSlice S1x512 ![2, 0] (k0_pay13 q) slices_S3x512_o2_0_S1x512) := rfl
  rw [e]
  exact rowMin_eq_chunkMin g q _ _ _ _ _ _ _ (pay8_at g) (pay9_at g) (pay10_at g) (pay11_at g)
    (pay14_at q) (pay15_at q) (fun j => (row2_at _ _ j).trans (pay13_at q 2 j)) n

/-- A reshape to the same shape changes nothing. -/
theorem pay2_eq (v : FVec Ideal S2048x1 .f32) : k0_pay2 (F := Ideal) v = v := by
  unfold k0_pay2
  exact shapeCast_self v _

/-- So is the second chunk minimum, reshaped to its own shape. -/
theorem pay3_eq (g : Vec Ideal S1x2048x3 .f32) (q : Vec Ideal S1x3x512 .f32) :
    k0_pay3 (F := Ideal) (k0_pay8 g) (k0_pay9 g) (k0_pay10 g) (k0_pay11 g) (k0_pay13 q) (k0_pay14 q) (k0_pay15 q)
      = k0_pay1 (F := Ideal) (k0_pay8 g) (k0_pay9 g) (k0_pay10 g) (k0_pay11 g) (k0_pay13 q) (k0_pay14 q) (k0_pay15 q) := by
  unfold k0_pay3
  exact shapeCast_self _ _

/-- The running minimum stored into the first scratch: what it held against the new chunk minimum. -/
theorem pay4_at (v41 : FVec Ideal S2048x1 .f32) (v83 : Vec Ideal S2048x1 .f32) (i : S2048x1.Idx) :
    k0_pay4 (F := Ideal) v41 v83 i = min (v83 i) (v41 i) := by
  unfold k0_pay4
  exact congrFun (shapeCast_self (minimumf v83 v41) _) i

/-- The running minimum stored into the second scratch. -/
theorem pay5_at (g : Vec Ideal S1x2048x3 .f32) (q : Vec Ideal S1x3x512 .f32) (v88 : Vec Ideal S2048x1 .f32) (i : S2048x1.Idx) :
    k0_pay5 (F := Ideal) (k0_pay8 g) (k0_pay9 g) (k0_pay10 g) (k0_pay11 g) (k0_pay13 q) (k0_pay14 q) (k0_pay15 q) v88 i
      = min (v88 i) (k0_pay1 (F := Ideal) (k0_pay8 g) (k0_pay9 g) (k0_pay10 g) (k0_pay11 g) (k0_pay13 q) (k0_pay14 q) (k0_pay15 q) i) := by
  unfold k0_pay5
  exact congrFun (shapeCast_self (minimumf v88 (k0_pay1 (F := Ideal) (k0_pay8 g) (k0_pay9 g) (k0_pay10 g) (k0_pay11 g) (k0_pay13 q) (k0_pay14 q) (k0_pay15 q))) _) i

/-! ## The mean absolute gap -/

/-- The sum over the 2048 rows of a 2048 × 1 column from zero, at its one index. -/
theorem colSum_apply (x : FVec Ideal S2048x1 .f32) (h : S2048x1.Reduces [0] S1) (hφ : FKind.Formats .f32)
    (hacc : (0x00000000#32 : BitVec 32) = FKind.add.neutral .f32 hφ) :
    multiReduction (F := Ideal) .add [0] S1 x 0x00000000#32 h hφ hacc (ix1 0) = ∑ n : Fin 2048, x (ix2 n 0) := by
  refine (Ideal.multiReduction_add_single x _ h hφ hacc _).trans ?_
  exact Finset.sum_congr rfl fun k _ => congrArg x (by
    funext ax
    match ax with
    | ⟨0, _⟩ => exact Fin.ext rfl
    | ⟨1, _⟩ => exact Fin.ext rfl)

/-- The stored result: the sum over the 2048 rows of the absolute difference of the two scratches, over 2048. -/
theorem pay6_at (a b : Vec Ideal S2048x1 .f32) (i : S1x1x1.Idx) :
    k0_pay6 (F := Ideal) a b i
      = Ideal.div (∑ n : Fin 2048, max (a (ix2 n 0) - b (ix2 n 0)) (-(a (ix2 n 0) - b (ix2 n 0)))) Cert.Chamfer.big := by
  obtain ⟨u, v, w, rfl⟩ : ∃ u v w : Fin 1, i = ix3 u v w := ⟨i 0, i 1, i 2, eq_ix3 i⟩
  obtain rfl : w = 0 := Subsingleton.elim _ _
  unfold k0_pay6
  refine (shapeCast_ab_1ab_apply _ _ u v 0).trans ?_
  refine (divf_apply _ _ _).trans ?_
  refine congrArg₂ Ideal.div ?_ rfl
  refine (shapeCast_a_1a_apply _ _ v 0).trans ?_
  exact colSum_apply (absf (subf a b)) _ _ _

end Cert.KernelIdeal.PayAt

end
-- ==== Proof.KInduct.lean ====
/-
  The running minima after a batch's last chunk are the distances to the nearest cloud points.

  After the point of batch `b` and chunk `c`, a scratch's row `n` is the minimum, over the cloud's rows below
  `512·(c + 1)`, of the distance from grid point `n`: at chunk 0 it is the chunk's own minimum, at a later chunk
  the minimum of what the chunk before left and the chunk's own. At chunk 15 every cloud row is below the bound.
-/
import proofs.«128429_j16346645528639_1_alg».proof.Proof.KBlocks
import proofs.«128429_j16346645528639_1_alg».proof.Proof.PayAt

set_option maxRecDepth 16384

noncomputable section

namespace Cert.KernelIdeal.KValue

open Cert.KernelIdeal Cert.KernelIdeal.Gen Cert.KernelIdeal.Body Cert.KernelIdeal.PayAt
open Idealize.ShloMosaic Idealize.ShloMosaic.TcCoe Idealize.ShloMosaic.ValueIdx Idealize.SL.Sem

variable (m : (ℓ : Loc nD τ sig) → Buf (Elt Ideal) ℓ)

/-! ## A chunk's minimum as a minimum over the cloud's rows of that chunk -/

/-- A value is below the chunk's minimum at row `n` exactly when it is below the distance to every cloud row
    of the chunk: `blk` is a cloud's chunk whose entry `(r, j)` is the cloud's coordinate `r` of row `rowOf t j`. -/
theorem le_chunkMin_iff (c : Dev nD) (t : Fin cfg0.N) (n : Fin 2048) (blk : Vec Ideal S1x3x512 .f32)
    (pts : Cert.Chamfer.Cloud)
    (hblk : ∀ (r : Fin 3) (j : Fin 512), blk (ix3 0 r j) = pts (ix3 (batchOf t) (rowOf t j) r)) (z : EReal) :
    z ≤ chunkMin (gblk m c t) blk n
      ↔ ∀ j : Fin 512, z ≤ Cert.Chamfer.cloudDist pts (gridOf m c) (batchOf t) n (rowOf t j) := by
  unfold chunkMin Cert.Chamfer.cloudDist
  rw [Finset.le_inf_iff]
  refine forall_congr' fun j => ?_
  rw [gblk_at m c t n 0, gblk_at m c t n 1, gblk_at m c t n 2, hblk 0 j, hblk 1 j, hblk 2 j]
  simp only [Finset.mem_univ, true_imp_iff]

/-! ## The cloud rows below a chunk's end: those below its start, and the chunk's own -/

theorem rows_split (t : Fin cfg0.N) (P : Fin 8192 → Prop) :
    (∀ k : Fin 8192, k.val < 512 * (t.val % 16 + 1) → P k)
      ↔ (∀ k : Fin 8192, k.val < 512 * (t.val % 16) → P k) ∧ ∀ j : Fin 512, P (rowOf t j) := by
  constructor
  · intro H
    refine ⟨fun k hk => H k (by omega), fun j => H _ ?_⟩
    have hj := j.isLt
    show 512 * (t.val % 16) + j.val < 512 * (t.val % 16 + 1)
    omega
  · rintro ⟨H1, H2⟩ k hk
    by_cases hlt : k.val < 512 * (t.val % 16)
    · exact H1 k hlt
    · have hk' : k = rowOf t ⟨k.val - 512 * (t.val % 16), by omega⟩ := by
        apply Fin.ext
        show k.val = 512 * (t.val % 16) + (k.val - 512 * (t.val % 16))
        omega
      rw [hk']
      exact H2 _

/-! ## The running minimum, by induction on the position -/

/-- A sequence of values, one per position, that at a batch's first chunk is the chunk's minimum and at a later
    chunk the minimum of the value before and the chunk's minimum, is after the point at position `p` the
    minimum over the cloud rows below `512·(p % 16 + 1)`. All in universal-property form. -/
theorem running_min (pts : Cert.Chamfer.Cloud) (grid : Cert.Chamfer.Grid) (n : Fin 2048)
    (s : (p : ℕ) → p < cfg0.N → EReal)
    (hfirst : ∀ t : Fin cfg0.N, t.val % 16 = 0 → ∀ z : EReal,
      (z ≤ s t.val t.isLt ↔ ∀ j : Fin 512, z ≤ Cert.Chamfer.cloudDist pts grid (batchOf t) n (rowOf t j)))
    (hlater : ∀ t : Fin cfg0.N, ¬t.val % 16 = 0 → ∀ z : EReal,
      (z ≤ s t.val t.isLt ↔ z ≤ s (t.val - 1) (Nat.lt_of_le_of_lt (Nat.sub_le _ _) t.isLt)
        ∧ ∀ j : Fin 512, z ≤ Cert.Chamfer.cloudDist pts grid (batchOf t) n (rowOf t j)))
    (z : EReal) :
    ∀ (p : ℕ) (hp : p < cfg0.N), (z ≤ s p hp
      ↔ ∀ k : Fin 8192, k.val < 512 * (p % 16 + 1) → z ≤ Cert.Chamfer.cloudDist pts grid (batchOf ⟨p, hp⟩) n k) := by
  intro p
  induction p with
  | zero =>
    intro hp
    refine (hfirst ⟨0, hp⟩ rfl z).trans ?_
    refine Iff.trans ?_ (rows_split ⟨0, hp⟩ (fun k => z ≤ Cert.Chamfer.cloudDist pts grid (batchOf ⟨0, hp⟩) n k)).symm
    constructor
    · intro H
      refine ⟨fun k hk => absurd hk ?_, H⟩
      show ¬k.val < 512 * (0 % 16)
      omega
    · exact fun H => H.2
  | succ p ih =>
    intro hp
    have hp' : p < cfg0.N := Nat.lt_of_succ_lt hp
    by_cases h : (p + 1) % 16 = 0
    · refine (hfirst ⟨p + 1, hp⟩ h z).trans ?_
      refine Iff.trans ?_
        (rows_split ⟨p + 1, hp⟩ (fun k => z ≤ Cert.Chamfer.cloudDist pts grid (batchOf ⟨p + 1, hp⟩) n k)).symm
      constructor
      · intro H
        refine ⟨fun k hk => absurd hk ?_, H⟩
        show ¬k.val < 512 * ((p + 1) % 16)
        omega
      · exact fun H => H.2
    · refine (hlater ⟨p + 1, hp⟩ h z).trans ?_
      refine Iff.trans ?_
        (rows_split ⟨p + 1, hp⟩ (fun k => z ≤ Cert.Chamfer.cloudDist pts grid (batchOf ⟨p + 1, hp⟩) n k)).symm
      refine and_congr ?_ Iff.rfl
      have hb : batchOf ⟨p + 1, hp⟩ = batchOf ⟨p, hp'⟩ := by
        apply Fin.ext
        show (p + 1) / 16 = p / 16
        omega
      have hbound : 512 * (p % 16 + 1) = 512 * ((p + 1) % 16) := by omega
      rw [hb]
      show z ≤ s p hp' ↔ ∀ k : Fin 8192, k.val < 512 * ((p + 1) % 16) →
        z ≤ Cert.Chamfer.cloudDist pts grid (batchOf ⟨p, hp'⟩) n k
      rw [← hbound]
      exact ih hp'

/-- At a batch's last chunk the bound is the whole cloud, so the value is the distance to the nearest point. -/
theorem running_min_last (pts : Cert.Chamfer.Cloud) (grid : Cert.Chamfer.Grid) (n : Fin 2048)
    (s : (p : ℕ) → p < cfg0.N → EReal)
    (hfirst : ∀ t : Fin cfg0.N, t.val % 16 = 0 → ∀ z : EReal,
      (z ≤ s t.val t.isLt ↔ ∀ j : Fin 512, z ≤ Cert.Chamfer.cloudDist pts grid (batchOf t) n (rowOf t j)))
    (hlater : ∀ t : Fin cfg0.N, ¬t.val % 16 = 0 → ∀ z : EReal,
      (z ≤ s t.val t.isLt ↔ z ≤ s (t.val - 1) (Nat.lt_of_le_of_lt (Nat.sub_le _ _) t.isLt)
        ∧ ∀ j : Fin 512, z ≤ Cert.Chamfer.cloudDist pts grid (batchOf t) n (rowOf t j)))
    (t : Fin cfg0.N) (h : t.val % 16 = 15) :
    s t.val t.isLt = Cert.Chamfer.nearest pts grid (batchOf t) n := by
  refine eq_of_forall_le_iff fun z => ?_
  rw [Cert.Chamfer.le_nearest_iff]
  refine (running_min pts grid n s hfirst hlater z t.val t.isLt).trans ?_
  constructor
  · intro H k
    exact H k (by have := k.isLt; omega)
  · exact fun H k _ => H k

/-! ## The two scratches -/

/-- After a batch's last chunk the first scratch's row `n` is the distance from grid point `n` to the nearest
    point of the second cloud. -/
theorem scP_last (c : Dev nD) (t : Fin cfg0.N) (h : t.val % 16 = 15) (n : Fin 2048) :
    (scAt m c t.val t.isLt).1 (ix2 n 0) = Cert.Chamfer.nearest (predsOf m c) (gridOf m c) (batchOf t) n := by
  refine running_min_last (predsOf m c) (gridOf m c) n (fun p hp => (scAt m c p hp).1 (ix2 n 0)) ?_ ?_ t h
  · intro t h0 z
    show z ≤ (scAt m c t.val t.isLt).1 (ix2 n 0) ↔ _
    rw [scAt_first m c t h0]
    dsimp only [resetAt]
    rw [pay2_eq]
    unfold curP
    rw [pay12_at (gblk m c t) (pblk m c t) n]
    exact le_chunkMin_iff m c t n (pblk m c t) (predsOf m c) (pblk_at m c t) z
  · intro t h0 z
    show z ≤ (scAt m c t.val t.isLt).1 (ix2 n 0) ↔ z ≤ (scAt m c (t.val - 1) _).1 (ix2 n 0) ∧ _
    rw [scAt_later m c t h0]
    dsimp only [foldAt]
    rw [pay4_at]
    unfold curP
    rw [pay12_at (gblk m c t) (pblk m c t) n, le_min_iff]
    exact and_congr Iff.rfl (le_chunkMin_iff m c t n (pblk m c t) (predsOf m c) (pblk_at m c t) z)

/-- and the second scratch's the distance to the nearest point of the first cloud. -/
theorem scG_last (c : Dev nD) (t : Fin cfg0.N) (h : t.val % 16 = 15) (n : Fin 2048) :
    (scAt m c t.val t.isLt).2 (ix2 n 0) = Cert.Chamfer.nearest (gtsOf m c) (gridOf m c) (batchOf t) n := by
  refine running_min_last (gtsOf m c) (gridOf m c) n (fun p hp => (scAt m c p hp).2 (ix2 n 0)) ?_ ?_ t h
  · intro t h0 z
    show z ≤ (scAt m c t.val t.isLt).2 (ix2 n 0) ↔ _
    rw [scAt_first m c t h0]
    dsimp only [resetAt]
    rw [pay3_eq (gblk m c t) (qblk m c t), pay1_at (gblk m c t) (qblk m c t) n]
    exact le_chunkMin_iff m c t n (qblk m c t) (gtsOf m c) (qblk_at m c t) z
  · intro t h0 z
    show z ≤ (scAt m c t.val t.isLt).2 (ix2 n 0) ↔ z ≤ (scAt m c (t.val - 1) _).2 (ix2 n 0) ∧ _
    rw [scAt_later m c t h0]
    dsimp only [foldAt]
    rw [pay5_at (gblk m c t) (qblk m c t), pay1_at (gblk m c t) (qblk m c t) n, le_min_iff]
    exact and_congr Iff.rfl (le_chunkMin_iff m c t n (qblk m c t) (gtsOf m c) (qblk_at m c t) z)

end Cert.KernelIdeal.KValue

end
-- ==== Proof.KFinal.lean ====
/-
  The kernel program's result: the array the region leaves, the host reshape after it, and the run.

  Only a batch's last chunk writes the result window back, and what it writes is the batch's mean gap: the
  running minima are then the nearest distances. The 8 write-backs cover the 8 × 1 × 1 array, one entry each,
  and the host reshapes it to the 8 results.
-/
import proofs.«128429_j16346645528639_1_alg».proof.Proof.KInduct
import proofs.«128429_j16346645528639_1_alg».proof.Proof.BodyObl
import Idealize.ShloMosaic.Lib.StableHlo.Run

set_option maxRecDepth 16384

noncomputable section

namespace Cert.KernelIdeal.KValue

open Cert.KernelIdeal Cert.KernelIdeal.Gen Cert.KernelIdeal.Body Cert.KernelIdeal.PayAt
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The array the region leaves: entry `(b, 0, 0)` is batch `b`'s mean gap. -/
def regionResult (c : Dev nD) : S8x1x1.Idx → EReal := fun i =>
  Cert.Chamfer.meanGap (gtsOf m c) (predsOf m c) (gridOf m c) ⟨(i 0).val, (i 0).isLt⟩

/-- At a batch's last chunk the result window receives the batch's mean gap. -/
theorem outAt_last (c : Dev nD) (t : Fin cfg0.N) (h : t.val % 16 = 15) (i : S1x1x1.Idx) :
    outAt m c t i = Cert.Chamfer.meanGap (gtsOf m c) (predsOf m c) (gridOf m c) (batchOf t) := by
  unfold outAt
  rw [pay6_at]
  unfold Cert.Chamfer.meanGap Cert.Chamfer.gap
  simp only [scP_last m c t h, scG_last m c t h]

/-- The result window's index map over the grid: block `(t / 16, 0, 0)`. -/
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- What a batch's last point writes back is its block of `regionResult`. -/
theorem flushed3_eq (c : Dev nD) (t : Fin cfg0.N) (h : t.val % 16 = 15) :
    (dats m 0 c).flushed 3 t = ((cfg0.win 3).blk t).view.read (Elt Ideal) (regionResult m c) := by
  show (cfg0.win 3).cut (grid0.coords t) ((dats m 0 c).after 3 t) = _
  rw [after3]
  funext j
  show outAt m c t j = regionResult m c (((cfg0.win 3).blk t).view.emb j)
  rw [outAt_last m c t h j]
  unfold regionResult
  congr 1
  apply Fin.ext
  show t.val / 16 = win0_3.index t (0 : Fin 3) * 1 + 1 * (j 0).val
  have hj : (j 0).val < 1 := (j 0).isLt
  have := (idx3 t).1
  omega

/-- An index of the array is in point `t`'s block iff each coordinate is in the block's range on its axis. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- Entry `(b, 0, 0)` is in the block the last point of batch `b` writes back. -/
theorem cover3 (i : S8x1x1.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 1 := (i 2).isLt
  have hN : cfg0.N = 128 := N_0
  refine ⟨⟨16 * (i 0).val + 15, by omega⟩, (flush0_3 _).mpr (by show (16 * (i 0).val + 15) % 16 = 15; omega), ?_⟩
  rw [mem_blk3]
  obtain ⟨e0, e1, e2⟩ := idx3 ⟨16 * (i 0).val + 15, by omega⟩
  intro a
  match a with
  | ⟨0, _⟩ => show win0_3.index _ (0 : Fin 3) * 1 ≤ (i 0).val ∧ (i 0).val < win0_3.index _ (0 : Fin 3) * 1 + 1; rw [e0]; show (16 * (i 0).val + 15) / 16 * 1 ≤ _ ∧ _ < (16 * (i 0).val + 15) / 16 * 1 + 1; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- The array after the region. -/
theorem final3 (c : Dev nD) : (dats m 0 c).arrAt 3 cfg0.N = regionResult m c :=
  (dats m 0 c).arrAt_eq_of_cover 3 (regionResult m c) (fun t hf => flushed3_eq m c t ((flush0_3 t).mp hf)) cover3

/-- The result buffer after the host reshape: the specification of the three argument arrays. -/
theorem tail_eq (c : Dev nD) :
    Pipeline.afterTail₀ cfgs (dats m) 0 (V0 m) [hostOps1] c main_v3
      = Cert.Chamfer.G (gtsOf m c) (predsOf m c) (gridOf m c) := by
  unfold Pipeline.afterTail₀
  show StableHlo.after hostOps1 _ (Proc.devRef .tc main_v3) = _
  after_results
  funext i
  have e : Pipeline.withArrays (cfgs 0).spec c (V0 m c) (fun w => (dats m 0 c).arrAt w (cfgs 0).N) (Proc.tc.devRef main_v2) = regionResult m c :=
    (Pipeline.withArrays_arr spec0 launch0.win.arr_inj c (V0 m c) _ 3).trans (final3 m c)
  show shapeCast S8 (Pipeline.withArrays (cfgs 0).spec c (V0 m c) (fun w => (dats m 0 c).arrAt w (cfgs 0).N) (Proc.tc.devRef main_v2)) shapeCasts_S8x1x1_S8 i = _
  rw [e]
  rw [shapeCast_apply (regionResult m c) shapeCasts_S8x1x1_S8 i (ix3 ⟨(i 0).val, (i 0).isLt⟩ 0 0) (by
    rw [Shape.rowMajor_val_three, Shape.rowMajor_val_one]; show ((i 0).val * 1 + 0) * 1 + 0 = (i 0).val; omega)]
  rfl

/-- The kernel program's run at the exact instance: every weakly fair execution terminates with the result
    buffer at the specification of the argument arrays, and the arguments unchanged. -/
theorem kernel_run : θ_run defs (onTc (τ := τ) (main (F := Ideal))) ⟨m, fun _ => 0, ρ⟩ (fun r => ∀ c : Dev nD,
      r.2.mem ((c.tc : Thread nD τ).loc main_v3) = Cert.Chamfer.G (gtsOf m c) (predsOf m c) (gridOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩) (run_main m ρ)

end Cert.KernelIdeal.KValue

end
-- ==== Proof.RefSide.lean ====
/-
  The reference's result, read index by index, is the specification `Cert.Chamfer.G`.
-/
import proofs.«128429_j16346645528639_1_alg».proof.Proof.Gen.ReferenceIdeal.Read
import proofs.«128429_j16346645528639_1_alg».proof.Proof.Spec
import Idealize.ShloMosaic.PureOps.Reduce
import Mathlib.Order.Basic
import Mathlib.Data.Finset.Fold
import Mathlib.Data.Finset.Lattice.Fold
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx

/-- The distance stage toward the second cloud, at grid point `n` and cloud point `k` of batch `b`, is the
    specification's distance: the two squared norms are sums over the three coordinates from the zero word, the inner
    product is the sum of the three coordinate products. -/
theorem dist_stage_x1 (x1 : (⟨S8x8192x3, .f32⟩ : BufTy).Contents (Elt Ideal)) (x2 : (⟨S8x2048x3, .f32⟩ : BufTy).Contents (Elt Ideal))
    (b : Fin 8) (n : Fin 2048) (k : Fin 8192) :
    val_main_v15 (F := Ideal) x1 x2 (ix3 b n k) = Cert.Chamfer.cloudDist x1 x2 b n k := by
  have eg : ∀ c : Fin 3, idx_main_v1 (idx_main_v2 (idx_main_v7 (ix3 b n k))) c = ix3 b n c := fun c =>
    funext fun a => Fin.ext (by match a with | ⟨0, _⟩ => rfl | ⟨1, _⟩ => rfl | ⟨2, _⟩ => rfl)
  have ep : ∀ c : Fin 3, idx_main_v4 (idx_main_v5 (idx_main_v8 (ix3 b n k))) c = ix3 b k c := fun c =>
    funext fun a => Fin.ext (by match a with | ⟨0, _⟩ => rfl | ⟨1, _⟩ => rfl | ⟨2, _⟩ => rfl)
  have el : ∀ c : Fin 3, lidx_main_v6 (ix3 b n k) c = ix3 b n c := fun c =>
    funext fun a => Fin.ext (by match a with | ⟨0, _⟩ => rfl | ⟨1, _⟩ => rfl | ⟨2, _⟩ => rfl)
  have er : ∀ c : Fin 3, ridx_main_v6 (ix3 b n k) c = ix3 b k c := fun c =>
    funext fun a => Fin.ext (by match a with | ⟨0, _⟩ => rfl | ⟨1, _⟩ => rfl | ⟨2, _⟩ => rfl)
  rw [val_main_v15_apply, val_main_v14_apply, val_main_v12_apply, val_main_v9_apply, val_main_v7_apply, val_main_v2_apply,
    val_main_v1_apply, val_main_v8_apply, val_main_v5_apply, val_main_v4_apply, val_main_v11_apply, val_main_v10_apply,
    val_main_v6_apply, val_main_v13_apply, val_main_cst_apply, val_main_cst_0_apply, val_main_cst_1_apply, val_main_cst_2_apply]
  simp only [Fin.sum_univ_three, eg, ep, el, er, val_main_v0_apply, val_main_v3_apply, Ideal.ofBits_def, Ideal.mulf_def,
    Ideal.addf_def, Ideal.subf_def, Ideal.maximumf_def, Ideal.hostUnary_sqrt_def, Ideal.ofBits_zero_f32, zero_add]
  unfold Cert.Chamfer.cloudDist Cert.Chamfer.dist
  simp only [Ideal.ofBits_zero_f32]

/-- The same stage toward the first cloud. -/
theorem dist_stage_x0 (x0 : (⟨S8x8192x3, .f32⟩ : BufTy).Contents (Elt Ideal)) (x2 : (⟨S8x2048x3, .f32⟩ : BufTy).Contents (Elt Ideal))
    (b : Fin 8) (n : Fin 2048) (k : Fin 8192) :
    val_main_v32 (F := Ideal) x0 x2 (ix3 b n k) = Cert.Chamfer.cloudDist x0 x2 b n k := by
  have eg : ∀ c : Fin 3, idx_main_v18 (idx_main_v19 (idx_main_v24 (ix3 b n k))) c = ix3 b n c := fun c =>
    funext fun a => Fin.ext (by match a with | ⟨0, _⟩ => rfl | ⟨1, _⟩ => rfl | ⟨2, _⟩ => rfl)
  have ep : ∀ c : Fin 3, idx_main_v21 (idx_main_v22 (idx_main_v25 (ix3 b n k))) c = ix3 b k c := fun c =>
    funext fun a => Fin.ext (by match a with | ⟨0, _⟩ => rfl | ⟨1, _⟩ => rfl | ⟨2, _⟩ => rfl)
  have el : ∀ c : Fin 3, lidx_main_v23 (ix3 b n k) c = ix3 b n c := fun c =>
    funext fun a => Fin.ext (by match a with | ⟨0, _⟩ => rfl | ⟨1, _⟩ => rfl | ⟨2, _⟩ => rfl)
  have er : ∀ c : Fin 3, ridx_main_v23 (ix3 b n k) c = ix3 b k c := fun c =>
    funext fun a => Fin.ext (by match a with | ⟨0, _⟩ => rfl | ⟨1, _⟩ => rfl | ⟨2, _⟩ => rfl)
  rw [val_main_v32_apply, val_main_v31_apply, val_main_v29_apply, val_main_v26_apply, val_main_v24_apply, val_main_v19_apply,
    val_main_v18_apply, val_main_v25_apply, val_main_v22_apply, val_main_v21_apply, val_main_v28_apply, val_main_v27_apply,
    val_main_v23_apply, val_main_v30_apply, val_main_cst_4_apply, val_main_cst_5_apply, val_main_cst_6_apply, val_main_cst_7_apply]
  simp only [Fin.sum_univ_three, eg, ep, el, er, val_main_v17_apply, val_main_v20_apply, Ideal.ofBits_def, Ideal.mulf_def,
    Ideal.addf_def, Ideal.subf_def, Ideal.maximumf_def, Ideal.hostUnary_sqrt_def, Ideal.ofBits_zero_f32, zero_add]
  unfold Cert.Chamfer.cloudDist Cert.Chamfer.dist
  simp only [Ideal.ofBits_zero_f32]

/-- The shape fact behind the two minima: dropping the cloud axis of an 8 × 2048 × 8192 array leaves 8 × 2048. -/
theorem reduces_cloud_axis : S8x2048x8192.Reduces [2] S8x2048 := by decide

/-- Inserting cloud point `k` on the dropped axis over `(b, n)` gives `(b, n, k)`. -/
theorem lift_cloud_axis (b : Fin 8) (n : Fin 2048) (k : Fin 8192) :
    reduces_cloud_axis.lift (ix2 b n) k = ix3 b n k :=
  funext fun a => Fin.ext (by match a with | ⟨0, _⟩ => rfl | ⟨1, _⟩ => rfl | ⟨2, _⟩ => rfl)

/-- A minimum over the cloud axis taken from `+∞` is the infimum over the cloud points: a value is below the fold exactly
    when it is below `+∞` and below every term, and the first holds of every value. -/
theorem min_over_cloud (y : S8x2048x8192.Idx → EReal) (init : S_.Idx → EReal)
    (hinit : init (Shape.Idx.first h_S_) = Ideal.ofBits .f32 0x7F800000#32) (b : Fin 8) (n : Fin 2048) :
    Host.reduce (FloatOps.minimumf (F := Ideal) (φ := .f32)) y init reducesTo_S8x2048x8192_S8x2048_d2 h_S_ (ix2 b n)
      = Finset.univ.inf fun k : Fin 8192 => y (ix3 b n k) := by
  rw [Host.reduce_eq_fold_single _ y init reducesTo_S8x2048x8192_S8x2048_d2 reduces_cloud_axis h_S_ (ix2 b n), hinit,
    Cert.Chamfer.ofBits_inf]
  refine eq_of_forall_le_iff fun z => ?_
  rw [Finset.le_inf_iff]
  have hl : ∀ k : Fin 8192, (y ∘ reduces_cloud_axis.lift (ix2 b n)) k = y (ix3 b n k) := fun k =>
    congrArg y (lift_cloud_axis b n k)
  exact (Finset.le_fold_min (β := EReal) z).trans
    ⟨fun h k _ => (h.2 k (Finset.mem_univ _)).trans_eq (hl k),
      fun h => ⟨le_top, fun k _ => (h k (Finset.mem_univ _)).trans_eq (hl k).symm⟩⟩

/-- The first minimum is the nearest distance to the second cloud. -/
theorem nearest_stage_x1 (x1 : (⟨S8x8192x3, .f32⟩ : BufTy).Contents (Elt Ideal)) (x2 : (⟨S8x2048x3, .f32⟩ : BufTy).Contents (Elt Ideal))
    (b : Fin 8) (n : Fin 2048) :
    val_main_v16 (F := Ideal) x1 x2 (ix2 b n) = Cert.Chamfer.nearest x1 x2 b n := by
  unfold val_main_v16 Cert.Chamfer.nearest
  rw [min_over_cloud _ _ rfl]
  exact congrArg _ (funext fun k => dist_stage_x1 x1 x2 b n k)

/-- The second minimum is the nearest distance to the first cloud. -/
theorem nearest_stage_x0 (x0 : (⟨S8x8192x3, .f32⟩ : BufTy).Contents (Elt Ideal)) (x2 : (⟨S8x2048x3, .f32⟩ : BufTy).Contents (Elt Ideal))
    (b : Fin 8) (n : Fin 2048) :
    val_main_v33 (F := Ideal) x0 x2 (ix2 b n) = Cert.Chamfer.nearest x0 x2 b n := by
  unfold val_main_v33 Cert.Chamfer.nearest
  rw [min_over_cloud _ _ rfl]
  exact congrArg _ (funext fun k => dist_stage_x0 x0 x2 b n k)

/-- The stage that writes the reference's result is the specification of the three argument arrays
    (`x0` the first cloud, `x1` the second, `x2` the grid). -/
theorem ref_is_G (x0 x1 : (⟨S8x8192x3, .f32⟩ : BufTy).Contents (Elt Ideal)) (x2 : (⟨S8x2048x3, .f32⟩ : BufTy).Contents (Elt Ideal)) :
    val_main_v38 (F := Ideal) x0 x1 x2 = Cert.Chamfer.G x0 x1 x2 := by
  funext i
  obtain ⟨b, rfl⟩ : ∃ b : Fin 8, i = ix1 b := ⟨i 0, eq_ix1 i⟩
  have en : ∀ n : Fin 2048, idx_main_v36 (ix1 b) n = ix2 b n := fun n =>
    funext fun a => Fin.ext (by match a with | ⟨0, _⟩ => rfl | ⟨1, _⟩ => rfl)
  rw [val_main_v38_apply, val_main_v36_apply, val_main_v37_apply, val_main_cst_9_apply, val_main_cst_10_apply]
  simp only [Ideal.ofBits_def, Ideal.hostDivf_def, Ideal.ofBits_zero_f32, zero_add]
  show Ideal.div _ _ = Cert.Chamfer.meanGap x0 x1 x2 b
  unfold Cert.Chamfer.meanGap Cert.Chamfer.gap
  refine congrArg (fun s => Ideal.div s Cert.Chamfer.big) (Finset.sum_congr rfl fun n _ => ?_)
  rw [en n, val_main_v35_apply, val_main_v34_apply, nearest_stage_x1, nearest_stage_x0, Ideal.hostAbsf_def, Ideal.absf_def,
    Ideal.subf_def]

end Cert.ReferenceIdeal.RefValue

end
-- ==== Proof.lean ====
/-
  The kernel computes, per batch, the mean over 2048 grid points of the absolute difference between the
  distances to the nearest points of two clouds of 8192 points; the reference computes the same from the full
  2048 × 8192 distance matrices.

  The kernel walks each batch's clouds in 16 chunks of 512 points and keeps, per grid point, a running minimum
  of the distances `√(max ((|g|² + |p|²) − 2·⟨g, p⟩) 0)`; a minimum of chunk minima is the minimum over all the
  points, and the sums of three coordinates agree with the reference's up to the grouping of the addends, so
  at the exact instance both programs end at one function of the argument arrays (`Cert.Chamfer.G`).

  The frames: the reference is a host program, whose run terminates with its arguments unchanged; the kernel
  program's body is run case by case on the position of a grid point in its batch, at the word level and at
  the exact instance alike. The idealization rewrote nothing, so `preserves` has nothing to say.
-/
import proofs.«128429_j16346645528639_1_alg».proof.Defs
import proofs.«128429_j16346645528639_1_alg».proof.Proof.Gen.Kernel
import proofs.«128429_j16346645528639_1_alg».proof.Proof.Gen.KernelIdeal
import proofs.«128429_j16346645528639_1_alg».proof.Proof.Gen.ReferenceIdeal
import proofs.«128429_j16346645528639_1_alg».proof.Proof.Gen.ReferenceIdeal.Run
import proofs.«128429_j16346645528639_1_alg».proof.Proof.Gen.ReferenceIdeal.Read
import proofs.«128429_j16346645528639_1_alg».proof.Proof.Gen.Pre_finite_inputs
import proofs.«128429_j16346645528639_1_alg».proof.Proof.BitsBodyObl
import proofs.«128429_j16346645528639_1_alg».proof.Proof.BodyObl
import proofs.«128429_j16346645528639_1_alg».proof.Proof.KFinal
import proofs.«128429_j16346645528639_1_alg».proof.Proof.RefSide
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end at `Cert.Chamfer.G` of them. -/
theorem algebraic : Cert.algebraic_KernelIdeal_ReferenceIdeal := by
  intro m ρ m' ρ' _ hagree
  refine ⟨fun c => Cert.Chamfer.G (Cert.KernelIdeal.KValue.gtsOf m c) (Cert.KernelIdeal.KValue.predsOf m c) (Cert.KernelIdeal.KValue.gridOf m c),
    Cert.KernelIdeal.KValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
